-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x32 : Shape := ⟨2, ![64, 32]⟩
abbrev S32 : Shape := ⟨1, ![32]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x96 .f32) (main_arg1 : IVec S2x800000 32) (main_arg2 : FVec F S96x64 .f32) (main_arg3 : FVec F S64 .f32) (main_arg4 : FVec F S64x32 .f32) (main_arg5 : FVec F S32 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x64 .f32 := Host.absf main_arg2
  let main_cst_0 : FVec F S_ .f32 := constant S_ .f32 0x7F800000#32
  let main_v5 : FVec F S96x64 .f32 := broadcastInDim S96x64 ![] bcast_S_S96x64 main_cst_0
  let main_v6 : IVec S96x64 1 := cmpf .olt main_v4 main_v5
  let main_c_1 : IVec S_ 1 := constantI S_ 1 1#1
  let main_v7 : IVec S_ 1 := (fun x v => Host.reduce IntOp.andi x v reducesTo_S96x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S800000x64 : Shape := ⟨2, ![800000, 64]⟩
abbrev S16000x96 : Shape := ⟨2, ![16000, 96]⟩
abbrev S16000x64 : Shape := ⟨2, ![16000, 64]⟩
abbrev S50000x64 : Shape := ⟨2, ![50000, 64]⟩
abbrev S1x64 : Shape := ⟨2, ![1, 64]⟩
abbrev S5000x64 : Shape := ⟨2, ![5000, 64]⟩
abbrev S800000x32 : Shape := ⟨2, ![800000, 32]⟩
abbrev S16000x32 : Shape := ⟨2, ![16000, 32]⟩
abbrev S50000x32 : Shape := ⟨2, ![50000, 32]⟩
abbrev S1x32 : Shape := ⟨2, ![1, 32]⟩
abbrev S5000x32 : Shape := ⟨2, ![5000, 32]⟩
abbrev S5000 : Shape := ⟨1, ![5000]⟩
abbrev S5000x1 : Shape := ⟨2, ![5000, 1]⟩

abbrev nBuf : Space → Nat
  | .hbm => 74
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x96, .f32⟩
  | .hbm, ⟨29, _⟩ => ⟨S800000x96, .i1⟩
  | .hbm, ⟨30, _⟩ => ⟨S_, .f32⟩
  | .hbm, ⟨31, _⟩ => ⟨S800000x96, .f32⟩
  | .hbm, ⟨32, _⟩ => ⟨S800000x96, .f32⟩
  | .hbm, ⟨33, _⟩ => ⟨S800000x96, .bf16⟩
  | .hbm, ⟨34, _⟩ => ⟨S96x64, .bf16⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x64, .f32⟩
  | .hbm, ⟨61, _⟩ => ⟨S800000x64, .i1⟩
  | .hbm, ⟨62, _⟩ => ⟨S_, .f32⟩
  | .hbm, ⟨63, _⟩ => ⟨S800000x64, .f32⟩
  | .hbm, ⟨64, _⟩ => ⟨S800000x64, .f32⟩
  | .hbm, ⟨65, _⟩ => ⟨S800000x64, .bf16⟩
  | .hbm, ⟨66, _⟩ => ⟨S64x32, .bf16⟩
  | .hbm, ⟨67, _⟩ => ⟨S800000x32, .f32⟩
  | .hbm, ⟨68, _⟩ => ⟨S_, .f32⟩
  | .hbm, ⟨69, _⟩ => ⟨S50000x32, .f32⟩
  | .hbm, ⟨70, _⟩ => ⟨S800000x1, .i32⟩
  | .hbm, ⟨71, _⟩ => ⟨S50000x32, .f32⟩
  | .hbm, ⟨72, _⟩ => ⟨S1x32, .f32⟩
  | .hbm, ⟨73, _⟩ => ⟨S50000x32, .f32⟩
  | .local _ .vmem, ⟨0, _⟩ => ⟨S16000x96, .bf16⟩
  | .local _ .vmem, ⟨1, _⟩ => ⟨S16000x96, .bf16⟩
  | .local _ .vmem, ⟨2, _⟩ => ⟨S96x64, .bf16⟩
  | .local _ .vmem, ⟨3, _⟩ => ⟨S16000x64, .f32⟩
  | .local _ .vmem, ⟨4, _⟩ => ⟨S16000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S16000x64, .bf16⟩
  | .local _ .vmem, ⟨11, _⟩ => ⟨S16000x64, .bf16⟩
  | .local _ .vmem, ⟨12, _⟩ => ⟨S64x32, .bf16⟩
  | .local _ .vmem, ⟨13, _⟩ => ⟨S16000x32, .f32⟩
  | .local _ .vmem, ⟨14, _⟩ => ⟨S16000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_0 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bitsLt_bf16_f32 : FTy.bits .bf16 < FTy.bits .f32
  inb_S16000x96_S16000x96_0_0 : ∀ a, (![0, 0] : Fin 2 → Nat) a + S16000x96.size a ≤ S16000x96.size a
  h_S16000x96 : 0 < S16000x96.numel
  shapeCasts_S16000x96_S16000x96 : S16000x96.ShapeCasts S16000x96
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S16000x64_S16000x64 : S16000x64.ShapeCasts S16000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S16000x32_S16000x32_0_0 : ∀ a, (![0, 0] : Fin 2 → Nat) a + S16000x32.size a ≤ S16000x32.size a
  h_S16000x32 : 0 < S16000x32.numel
  bcast_S_S50000x32 : S_.BroadcastsInDim S50000x32 (![] : Fin 0 → Fin S50000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  gather_S50000x96_S800000x1_S800000x96_1_0_n_n_0_1_196_wf : GatherDims.WF S50000x96 S800000x1 S800000x96 [1] [0] [] [0] [] 1 ![1, 96]
  dot_S16000x96_S96x64_S16000x64_1_0_0_1_n_n_wf : DotDims.WF S16000x96 S96x64 S16000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S16000x64_S64x32_S16000x32_1_0_0_1_n_n_wf : DotDims.WF S16000x64 S64x32 S16000x32 [1] [0] [0] [1] [] []
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x96.size a ≤ S800000x96.size a
  hwx0_0 : ∀ i : grid0.Coords, EltTy.bits .bf16 = 32 ∨ (Rect.block (s := S800000x96) S16000x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .bf16 = 32 ∨ (Rect.block (s := S96x64) S96x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S800000x64.size a
  hwx0_2 : ∀ i : grid0.Coords, EltTy.bits .f32 = 32 ∨ (Rect.block (s := S800000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S800000x64.size a
  hwx2_0 : ∀ i : grid2.Coords, EltTy.bits .bf16 = 32 ∨ (Rect.block (s := S800000x64) S16000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .bf16 = 32 ∨ (Rect.block (s := S64x32) S64x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x32.size a ≤ S800000x32.size a
  hwx2_2 : ∀ i : grid2.Coords, EltTy.bits .f32 = 32 ∨ (Rect.block (s := S800000x32) S16000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S16000x96_S96x64_S16000x64_1_0_0_1_n_n : DotDims S16000x96 S96x64 S16000x64 where
  lhsContracting := [1]
  rhsContracting := [0]
  lhsNonContracting := [0]
  rhsNonContracting := [1]
  lhsBatch := []
  rhsBatch := []
  wf := dot_S16000x96_S96x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x32_S16000x32_1_0_0_1_n_n : DotDims S16000x64 S64x32 S16000x32 where
  lhsContracting := [1]
  rhsContracting := [0]
  lhsNonContracting := [0]
  rhsNonContracting := [1]
  lhsBatch := []
  rhsBatch := []
  wf := dot_S16000x64_S64x32_S16000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v5) S16000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S16000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S800000x64 : Shape := ⟨2, ![800000, 64]⟩
abbrev S50000x64 : Shape := ⟨2, ![50000, 64]⟩
abbrev S1x64 : Shape := ⟨2, ![1, 64]⟩
abbrev S800000x32 : Shape := ⟨2, ![800000, 32]⟩
abbrev S50000x32 : Shape := ⟨2, ![50000, 32]⟩
abbrev S1x32 : Shape := ⟨2, ![1, 32]⟩
abbrev S50000 : Shape := ⟨1, ![50000]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S_, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S800000x32, .f32⟩
  | .hbm, ⟨40, _⟩ => ⟨S_, .f32⟩
  | .hbm, ⟨41, _⟩ => ⟨S50000x32, .f32⟩
  | .hbm, ⟨42, _⟩ => ⟨S800000x1, .i32⟩
  | .hbm, ⟨43, _⟩ => ⟨S50000x32, .f32⟩
  | .hbm, ⟨44, _⟩ => ⟨S1x32, .f32⟩
  | .hbm, ⟨45, _⟩ => ⟨S50000x32, .f32⟩
  | .hbm, ⟨46, _⟩ => ⟨S50000x32, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x32, .f32⟩
  | .hbm, ⟨54, _⟩ => ⟨S50000x32, .f32⟩
  | .hbm, ⟨55, _⟩ => ⟨S50000x32, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x1, .f32⟩
  | .hbm, ⟨60, _⟩ => ⟨S50000x32, .f32⟩
  | .hbm, ⟨61, _⟩ => ⟨S50000x32, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x96_S800000x1_S800000x96_1_0_n_n_0_1_196_wf : GatherDims.WF S50000x96 S800000x1 S800000x96 [1] [0] [] [0] [] 1 ![1, 96]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S800000x64_S64x32_S800000x32_1_0_0_1_n_n_wf : DotDims.WF S800000x64 S64x32 S800000x32 [1] [0] [0] [1] [] []
  scatter_S50000x32_S800000x1_S800000x32_1_0_0_1_wf : ScatterDims.WF S50000x32 S800000x1 S800000x32 [1] [0] [0] 1

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.Spec.lean ====
/-
  What the two graph-convolution layers compute, as functions of whole arrays of extended reals, read index by index.

  A layer takes per-edge rows (the node features gathered at each edge's source), multiplies each row by the weight
  matrix, sums the products into each edge's target node, adds the bias, and applies relu (first layer) or a
  row-wise log-softmax (second layer). The gather and the sum over edges are the same host operations in both programs,
  so only three functions are stated here: the row-by-matrix product, bias-then-relu, and bias-then-log-softmax.
  The bias enters as a function of the column (one program holds it as a length-m array, the other as a 1-by-m one).
  Each is stated at a rank-2 index through its two coordinates, so that a proof can split an index into
  `ix2 e j` and read the definition by `rfl`.
-/
import Idealize.ShloMosaic.Lib.ValueIdx
import Idealize.ShloMosaic.PureOps.Ideal.Laws

noncomputable section

open scoped BigOperators

namespace Cert.Gcn

open Idealize.ShloMosaic Idealize.ShloMosaic.ValueIdx

/-- A rank-2 array of extended reals with `n` rows and `m` columns. -/
abbrev Arr2 (n m : Nat) : Type := (⟨2, ![n, m]⟩ : Shape).Idx → EReal
/-- A rank-1 array of extended reals of length `n`. -/
abbrev Arr1 (n : Nat) : Type := (⟨1, ![n]⟩ : Shape).Idx → EReal

/-- The row coordinate of a rank-2 index, typed by the literal row count. -/
abbrev row {n m : Nat} (i : (⟨2, ![n, m]⟩ : Shape).Idx) : Fin n := ⟨(i 0).val, idx2_lt0 i⟩
/-- The column coordinate of a rank-2 index, typed by the literal column count. -/
abbrev col {n m : Nat} (i : (⟨2, ![n, m]⟩ : Shape).Idx) : Fin m := ⟨(i 1).val, idx2_lt1 i⟩

/-- Each row of `X` times the matrix `W`: entry `(e, j)` is the sum over `q` of `X[e, q] · W[q, j]`. -/
def rowsTimes {n k m : Nat} (X : Arr2 n k) (W : Arr2 k m) : Arr2 n m :=
  fun i => ∑ q : Fin k, X (ix2 (row i) q) * W (ix2 q (col i))

theorem rowsTimes_apply {n k m : Nat} (X : Arr2 n k) (W : Arr2 k m) (e : Fin n) (j : Fin m) :
    rowsTimes X W (ix2 e j) = ∑ q : Fin k, X (ix2 e q) * W (ix2 q j) := rfl

/-- Bias added to every row, then the maximum with zero: entry `(v, j)` is `max (A[v, j] + b[j]) 0`. The zero is kept as
    the f32 word both programs print, so neither side ever evaluates it. -/
def biasRelu {n m : Nat} (A : Arr2 n m) (b : Fin m → EReal) : Arr2 n m :=
  fun i => max (A i + b (col i)) (Ideal.ofBits .f32 0x00000000#32)

theorem biasRelu_apply {n m : Nat} (A : Arr2 n m) (b : Fin m → EReal) (v : Fin n) (j : Fin m) :
    biasRelu A b (ix2 v j) = max (A (ix2 v j) + b j) (Ideal.ofBits .f32 0x00000000#32) := rfl

/-- Row `v` of `A` with the bias added: the logits of node `v`. -/
def logits {n m : Nat} (A : Arr2 n m) (b : Fin m → EReal) (v : Fin n) : Fin m → EReal :=
  fun q => A (ix2 v q) + b q

/-- The largest logit of a row, as the fold of `max` from the f32 word for minus infinity that both programs start from. -/
def rowMax {m : Nat} (z : Fin m → EReal) : EReal :=
  (Finset.univ : Finset (Fin m)).fold max (Ideal.ofBits .f32 0xFF800000#32) z

/-- Bias added to every row, then the row-wise log-softmax in its shifted form: with `z` the row's logits and `M` their
    maximum, entry `(v, j)` is `(z j − M) − log (∑ q, exp (z q − M))`. -/
def biasLogSoftmax {n m : Nat} (A : Arr2 n m) (b : Fin m → EReal) : Arr2 n m :=
  fun i => (logits A b (row i) (col i) - rowMax (logits A b (row i)))
    - Ideal.log (∑ q : Fin m, Ideal.exp (logits A b (row i) q - rowMax (logits A b (row i))))

theorem biasLogSoftmax_apply {n m : Nat} (A : Arr2 n m) (b : Fin m → EReal) (v : Fin n) (j : Fin m) :
    biasLogSoftmax A b (ix2 v j) = (logits A b v j - rowMax (logits A b v))
      - Ideal.log (∑ q : Fin m, Ideal.exp (logits A b v q - rowMax (logits A b v))) := rfl

end Cert.Gcn

end
-- ==== Proof.KMatmul1.lean ====
import proofs.«402938_j41772851920952_2_alg».proof.Proof.Gen.KernelIdeal.Frame
import proofs.«402938_j41772851920952_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product: one block of 16000 rows times the whole matrix, entry by entry -/

/-- Both loads and the store of the body start at the origin of their buffers. -/
theorem originOffsets1 : (![0, 0] : Fin 2 → Nat) = fun _ => 0 := funext fun a => by fin_cases a <;> rfl

/-- In the body's contraction the left operand is read at the output's row … -/
theorem blockDot1_lhs_0 (i : S16000x64.Idx) (q : dot_S16000x96_S96x64_S16000x64_1_0_0_1_n_n.contr.Idx) :
    (dot_S16000x96_S96x64_S16000x64_1_0_0_1_n_n.lhsIdx i q 0).val = (i 0).val := by
  unfold DotDims.lhsIdx
  rw [dif_neg (show ¬(0 : Fin S16000x96.rank) ∈ dot_S16000x96_S96x64_S16000x64_1_0_0_1_n_n.lhsBatch by decide), dif_pos (show (0 : Fin S16000x96.rank) ∈ dot_S16000x96_S96x64_S16000x64_1_0_0_1_n_n.lhsNonContracting by decide)]
  rfl
/-- … and at the summed position in its columns; -/
theorem blockDot1_lhs_1 (i : S16000x64.Idx) (q : dot_S16000x96_S96x64_S16000x64_1_0_0_1_n_n.contr.Idx) :
    (dot_S16000x96_S96x64_S16000x64_1_0_0_1_n_n.lhsIdx i q 1).val = (q ⟨0, by decide⟩).val :=
  dot_S16000x96_S96x64_S16000x64_1_0_0_1_n_n.lhsIdx_val_of_single rfl i q
/-- the right operand is read at the summed position in its rows … -/
theorem blockDot1_rhs_0 (i : S16000x64.Idx) (q : dot_S16000x96_S96x64_S16000x64_1_0_0_1_n_n.contr.Idx) :
    (dot_S16000x96_S96x64_S16000x64_1_0_0_1_n_n.rhsIdx i q 0).val = (q ⟨0, by decide⟩).val :=
  dot_S16000x96_S96x64_S16000x64_1_0_0_1_n_n.rhsIdx_val_of_single rfl i q
/-- … and at the output's column. -/
theorem blockDot1_rhs_1 (i : S16000x64.Idx) (q : dot_S16000x96_S96x64_S16000x64_1_0_0_1_n_n.contr.Idx) :
    (dot_S16000x96_S96x64_S16000x64_1_0_0_1_n_n.rhsIdx i q 1).val = (i 1).val := by
  unfold DotDims.rhsIdx
  rw [dif_neg (show ¬(1 : Fin S96x64.rank) ∈ dot_S16000x96_S96x64_S16000x64_1_0_0_1_n_n.rhsBatch by decide), dif_pos (show (1 : Fin S96x64.rank) ∈ dot_S16000x96_S96x64_S16000x64_1_0_0_1_n_n.rhsNonContracting by decide)]
  rfl

/-- The body's arithmetic at entry (p, q) of its block: a product into a zero accumulator, so the sum over the 96
    shared positions of the block's row p against the matrix's column q. -/
theorem blockProduct1_apply (x0 : FVec Ideal S16000x96 .bf16) (x1 : FVec Ideal S96x64 .bf16) (p : Fin 16000) (q : Fin 64) :
    k0_pay1 (F := Ideal) x0 x1 (ix2 p q) = ∑ k : Fin 96, x0 (ix2 p k) * x1 (ix2 k q) := by
  unfold k0_pay1
  rw [shapeCast_self, shapeCast_self]
  refine (Ideal.matmul_constant_zero_apply dot_S16000x96_S96x64_S16000x64_1_0_0_1_n_n none x0 x1 (ix2 p q)).trans ?_
  rw [← Equiv.sum_comp (ValueIdx.contrEquiv1 dot_S16000x96_S96x64_S16000x64_1_0_0_1_n_n 96 rfl rfl).symm]
  refine Finset.sum_congr rfl fun k _ => ?_
  have hk := ValueIdx.contrEquiv1_symm_val dot_S16000x96_S96x64_S16000x64_1_0_0_1_n_n 96 rfl rfl k
  have el : dot_S16000x96_S96x64_S16000x64_1_0_0_1_n_n.lhsIdx (ix2 p q) ((ValueIdx.contrEquiv1 dot_S16000x96_S96x64_S16000x64_1_0_0_1_n_n 96 rfl rfl).symm k) = ix2 p k := funext fun a => Fin.ext (by
    match a with
    | ⟨0, _⟩ => exact blockDot1_lhs_0 _ _
    | ⟨1, _⟩ => exact (blockDot1_lhs_1 _ _).trans hk)
  have er : dot_S16000x96_S96x64_S16000x64_1_0_0_1_n_n.rhsIdx (ix2 p q) ((ValueIdx.contrEquiv1 dot_S16000x96_S96x64_S16000x64_1_0_0_1_n_n 96 rfl rfl).symm k) = ix2 k q := funext fun a => Fin.ext (by
    match a with
    | ⟨0, _⟩ => exact (blockDot1_rhs_0 _ _).trans hk
    | ⟨1, _⟩ => exact blockDot1_rhs_1 _ _)
  rw [el, er]

/-! ## Where the blocks sit: point t takes rows 16000·t … 16000·t + 15999 of the first operand and of the output, and
    the whole second operand -/

/-- The block indices of the three windows at point t, decided over the 50 points: the first operand's and the output's
    row block is t, every column block is 0, and the second operand's block is (0, 0). -/
theorem blockIndex1 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The first operand's block at point t holds the array's rows from 16000·t on, all 96 columns. -/
theorem leftBlock1_apply (c : Dev nD) (t : Fin cfg0.N) (x : S16000x96.Idx) (i : S800000x96.Idx)
    (h0 : (i 0).val = 16000 * t.val + (x 0).val) (h1 : (i 1).val = (x 1).val) :
    (iblk0 (F := Ideal) V c 0 t : Vec Ideal S16000x96 .bf16) x = (V c main_v5 : S800000x96.Idx → Elt Ideal .bf16) i := by
  obtain ⟨e0, e1, -⟩ := blockIndex1 t
  unfold iblk0
  rw [View.read_apply]
  show V c main_v5 _ = V c main_v5 _
  congr 1
  funext a
  apply Fin.ext
  match a with
  | ⟨0, _⟩ => show win0_0.index t (0 : Fin 2) * 16000 + 1 * (x 0).val = (i 0).val; rw [e0, h0]; omega
  | ⟨1, _⟩ => show win0_0.index t (1 : Fin 2) * 96 + 1 * (x 1).val = (i 1).val; rw [e1, h1]; omega

/-- The second operand's block at every point is the whole matrix. -/
theorem rightBlock1_apply (c : Dev nD) (t : Fin cfg0.N) (x : S96x64.Idx) :
    (iblk0 (F := Ideal) V c 1 t : Vec Ideal S96x64 .bf16) x = (V c main_v6 : S96x64.Idx → Elt Ideal .bf16) x := by
  obtain ⟨-, -, e2, e3, -⟩ := blockIndex1 t
  unfold iblk0
  rw [View.read_apply]
  show V c main_v6 _ = V c main_v6 _
  congr 1
  funext a
  apply Fin.ext
  match a with
  | ⟨0, _⟩ => show win0_1.index t (0 : Fin 2) * 96 + 1 * (x 0).val = (x 0).val; rw [e2]; omega
  | ⟨1, _⟩ => show win0_1.index t (1 : Fin 2) * 64 + 1 * (x 1).val = (x 1).val; rw [e3]; omega

/-! ## What a point writes back, and the whole array -/

/-- What point t writes back is block t of the rows-times-matrix array: entry (p, q) of the body's block is row
    16000·t + p of the first operand against column q of the second. -/
theorem edgeBlock1_flushed (c : Dev nD) (t : Fin cfg0.N) :
    (dat0 (F := Ideal) V c).flushed 2 t
      = ((cfg0.win 2).blk t).view.read (Elt Ideal) (rowsTimes (n := 800000) (k := 96) (m := 64) (V c main_v5) (V c main_v6)) := by
  show (cfg0.win 2).cut (grid0.coords t) ((dat0 (F := Ideal) V c).after 2 t) = _
  rw [after0_2]
  unfold out0_2
  rw [View.canon_unit_zero originOffsets1]
  simp only [View.ld_unit_zero (S := S16000x96) originOffsets1, View.ld_unit_zero (S := S96x64) originOffsets1]
  obtain ⟨-, -, -, -, e4, e5⟩ := blockIndex1 t
  funext j
  obtain ⟨p, q, rfl⟩ : ∃ (p : Fin 16000) (q : Fin 64), j = ix2 p q := ⟨j 0, j 1, eq_ix2 j⟩
  have ht : t.val < 50 := lt_of_lt_of_eq t.isLt (N_0 : cfg0.N = 50)
  have hrow : 16000 * t.val + p.val < 800000 := by have := p.isLt; omega
  have hemb : ((cfg0.win 2).blk t).view.emb (ix2 p q) = (ix2 (⟨16000 * t.val + p.val, hrow⟩ : Fin 800000) q : S800000x64.Idx) := by
    funext a
    apply Fin.ext
    match a with
    | ⟨0, _⟩ => show win0_2.index t (0 : Fin 2) * 16000 + 1 * p.val = 16000 * t.val + p.val; rw [e4]; omega
    | ⟨1, _⟩ => show win0_2.index t (1 : Fin 2) * 64 + 1 * q.val = q.val; rw [e5]; omega
  rw [View.read_apply, hemb, rowsTimes_apply]
  refine (blockProduct1_apply (iblk0 (F := Ideal) V c 0 t) (iblk0 (F := Ideal) V c 1 t) p q).trans ?_
  refine Finset.sum_congr rfl fun k _ => ?_
  rw [leftBlock1_apply V c t (ix2 p k) (ix2 (⟨16000 * t.val + p.val, hrow⟩ : Fin 800000) k) rfl rfl,
    rightBlock1_apply V c t (ix2 k q)]

/-- An index of the output array lies in point t's block iff each coordinate lies in the block's range on its axis. -/
theorem edgeBlock1_mem (t : Fin cfg0.N) (i : S800000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v7).slice (win0_2.rect t)).set ↔ _
  rw [View.set_slice_whole, Rect.mem_set_unit]
  exact Iff.rfl

/-- The 50 blocks fill the array: row r lies in the block of point r / 16000, which is written back. -/
theorem edgeBlocks1_cover (i : S800000x64.Idx) :
    ∃ t : Fin cfg0.N, (cfg0.win 2).flush t = true ∧ i ∈ ((cfg0.win 2).blk t).view.set := by
  have hi0 : (i 0).val < 800000 := idx2_lt0 i
  have hi1 : (i 1).val < 64 := idx2_lt1 i
  have hN : cfg0.N = 50 := N_0
  have hlt : (i 0).val / 16000 < cfg0.N := by rw [hN]; omega
  obtain ⟨-, -, -, -, e4, e5⟩ := blockIndex1 ⟨(i 0).val / 16000, hlt⟩
  refine ⟨⟨(i 0).val / 16000, hlt⟩, flush0_2 _, ?_⟩
  rw [edgeBlock1_mem]
  intro a
  match a with
  | ⟨0, _⟩ =>
    show win0_2.index ⟨(i 0).val / 16000, hlt⟩ (0 : Fin 2) * 16000 ≤ (i 0).val ∧ (i 0).val < win0_2.index ⟨(i 0).val / 16000, hlt⟩ (0 : Fin 2) * 16000 + 16000
    rw [e4]
    show (i 0).val / 16000 * 16000 ≤ (i 0).val ∧ (i 0).val < (i 0).val / 16000 * 16000 + 16000
    omega
  | ⟨1, _⟩ =>
    show win0_2.index ⟨(i 0).val / 16000, hlt⟩ (1 : Fin 2) * 64 ≤ (i 1).val ∧ (i 1).val < win0_2.index ⟨(i 0).val / 16000, hlt⟩ (1 : Fin 2) * 64 + 64
    rw [e5]
    omega

/-- Region 0 (the first per-edge matmul, 50 blocks of 16000 edge rows): after the region the output array holds, at
    every index, the row of its first operand times its second operand. -/
theorem edgeProduct1 (c : Dev nD) :
    (dat0 (F := Ideal) V c).arrAt 2 cfg0.N = rowsTimes (n := 800000) (k := 96) (m := 64) (V c main_v5) (V c main_v6) :=
  (dat0 (F := Ideal) V c).arrAt_eq_of_cover 2 (rowsTimes (n := 800000) (k := 96) (m := 64) (V c main_v5) (V c main_v6))
    (fun t _ => edgeBlock1_flushed V c t) (fun i => edgeBlocks1_cover i)

end Cert.KernelIdeal.RegionValue

end
-- ==== Proof.KMatmul2.lean ====
import proofs.«402938_j41772851920952_2_alg».proof.Proof.Gen.KernelIdeal.Frame
import proofs.«402938_j41772851920952_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product: one block of 16000 rows times the whole matrix, entry by entry -/

/-- Both loads and the store of the body start at the origin of their buffers. -/
theorem originOffsets2 : (![0, 0] : Fin 2 → Nat) = fun _ => 0 := funext fun a => by fin_cases a <;> rfl

/-- In the body's contraction the left operand is read at the output's row … -/
theorem blockDot2_lhs_0 (i : S16000x32.Idx) (q : dot_S16000x64_S64x32_S16000x32_1_0_0_1_n_n.contr.Idx) :
    (dot_S16000x64_S64x32_S16000x32_1_0_0_1_n_n.lhsIdx i q 0).val = (i 0).val := by
  unfold DotDims.lhsIdx
  rw [dif_neg (show ¬(0 : Fin S16000x64.rank) ∈ dot_S16000x64_S64x32_S16000x32_1_0_0_1_n_n.lhsBatch by decide), dif_pos (show (0 : Fin S16000x64.rank) ∈ dot_S16000x64_S64x32_S16000x32_1_0_0_1_n_n.lhsNonContracting by decide)]
  rfl
/-- … and at the summed position in its columns; -/
theorem blockDot2_lhs_1 (i : S16000x32.Idx) (q : dot_S16000x64_S64x32_S16000x32_1_0_0_1_n_n.contr.Idx) :
    (dot_S16000x64_S64x32_S16000x32_1_0_0_1_n_n.lhsIdx i q 1).val = (q ⟨0, by decide⟩).val :=
  dot_S16000x64_S64x32_S16000x32_1_0_0_1_n_n.lhsIdx_val_of_single rfl i q
/-- the right operand is read at the summed position in its rows … -/
theorem blockDot2_rhs_0 (i : S16000x32.Idx) (q : dot_S16000x64_S64x32_S16000x32_1_0_0_1_n_n.contr.Idx) :
    (dot_S16000x64_S64x32_S16000x32_1_0_0_1_n_n.rhsIdx i q 0).val = (q ⟨0, by decide⟩).val :=
  dot_S16000x64_S64x32_S16000x32_1_0_0_1_n_n.rhsIdx_val_of_single rfl i q
/-- … and at the output's column. -/
theorem blockDot2_rhs_1 (i : S16000x32.Idx) (q : dot_S16000x64_S64x32_S16000x32_1_0_0_1_n_n.contr.Idx) :
    (dot_S16000x64_S64x32_S16000x32_1_0_0_1_n_n.rhsIdx i q 1).val = (i 1).val := by
  unfold DotDims.rhsIdx
  rw [dif_neg (show ¬(1 : Fin S64x32.rank) ∈ dot_S16000x64_S64x32_S16000x32_1_0_0_1_n_n.rhsBatch by decide), dif_pos (show (1 : Fin S64x32.rank) ∈ dot_S16000x64_S64x32_S16000x32_1_0_0_1_n_n.rhsNonContracting by decide)]
  rfl

/-- The body's arithmetic at entry (p, q) of its block: a product into a zero accumulator, so the sum over the 64
    shared positions of the block's row p against the matrix's column q. -/
theorem blockProduct2_apply (x0 : FVec Ideal S16000x64 .bf16) (x1 : FVec Ideal S64x32 .bf16) (p : Fin 16000) (q : Fin 32) :
    k2_pay1 (F := Ideal) x0 x1 (ix2 p q) = ∑ k : Fin 64, x0 (ix2 p k) * x1 (ix2 k q) := by
  unfold k2_pay1
  rw [shapeCast_self, shapeCast_self]
  refine (Ideal.matmul_constant_zero_apply dot_S16000x64_S64x32_S16000x32_1_0_0_1_n_n none x0 x1 (ix2 p q)).trans ?_
  rw [← Equiv.sum_comp (ValueIdx.contrEquiv1 dot_S16000x64_S64x32_S16000x32_1_0_0_1_n_n 64 rfl rfl).symm]
  refine Finset.sum_congr rfl fun k _ => ?_
  have hk := ValueIdx.contrEquiv1_symm_val dot_S16000x64_S64x32_S16000x32_1_0_0_1_n_n 64 rfl rfl k
  have el : dot_S16000x64_S64x32_S16000x32_1_0_0_1_n_n.lhsIdx (ix2 p q) ((ValueIdx.contrEquiv1 dot_S16000x64_S64x32_S16000x32_1_0_0_1_n_n 64 rfl rfl).symm k) = ix2 p k := funext fun a => Fin.ext (by
    match a with
    | ⟨0, _⟩ => exact blockDot2_lhs_0 _ _
    | ⟨1, _⟩ => exact (blockDot2_lhs_1 _ _).trans hk)
  have er : dot_S16000x64_S64x32_S16000x32_1_0_0_1_n_n.rhsIdx (ix2 p q) ((ValueIdx.contrEquiv1 dot_S16000x64_S64x32_S16000x32_1_0_0_1_n_n 64 rfl rfl).symm k) = ix2 k q := funext fun a => Fin.ext (by
    match a with
    | ⟨0, _⟩ => exact (blockDot2_rhs_0 _ _).trans hk
    | ⟨1, _⟩ => exact blockDot2_rhs_1 _ _)
  rw [el, er]

/-! ## Where the blocks sit: point t takes rows 16000·t … 16000·t + 15999 of the first operand and of the output, and
    the whole second operand -/

/-- The block indices of the three windows at point t, decided over the 50 points: the first operand's and the output's
    row block is t, every column block is 0, and the second operand's block is (0, 0). -/
theorem blockIndex2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The first operand's block at point t holds the array's rows from 16000·t on, all 64 columns. -/
theorem leftBlock2_apply (c : Dev nD) (t : Fin cfg2.N) (x : S16000x64.Idx) (i : S800000x64.Idx)
    (h0 : (i 0).val = 16000 * t.val + (x 0).val) (h1 : (i 1).val = (x 1).val) :
    (iblk2 (F := Ideal) V c 0 t : Vec Ideal S16000x64 .bf16) x = (V c main_v14 : S800000x64.Idx → Elt Ideal .bf16) i := by
  obtain ⟨e0, e1, -⟩ := blockIndex2 t
  unfold iblk2
  rw [View.read_apply]
  show V c main_v14 _ = V c main_v14 _
  congr 1
  funext a
  apply Fin.ext
  match a with
  | ⟨0, _⟩ => show win2_0.index t (0 : Fin 2) * 16000 + 1 * (x 0).val = (i 0).val; rw [e0, h0]; omega
  | ⟨1, _⟩ => show win2_0.index t (1 : Fin 2) * 64 + 1 * (x 1).val = (i 1).val; rw [e1, h1]; omega

/-- The second operand's block at every point is the whole matrix. -/
theorem rightBlock2_apply (c : Dev nD) (t : Fin cfg2.N) (x : S64x32.Idx) :
    (iblk2 (F := Ideal) V c 1 t : Vec Ideal S64x32 .bf16) x = (V c main_v15 : S64x32.Idx → Elt Ideal .bf16) x := by
  obtain ⟨-, -, e2, e3, -⟩ := blockIndex2 t
  unfold iblk2
  rw [View.read_apply]
  show V c main_v15 _ = V c main_v15 _
  congr 1
  funext a
  apply Fin.ext
  match a with
  | ⟨0, _⟩ => show win2_1.index t (0 : Fin 2) * 64 + 1 * (x 0).val = (x 0).val; rw [e2]; omega
  | ⟨1, _⟩ => show win2_1.index t (1 : Fin 2) * 32 + 1 * (x 1).val = (x 1).val; rw [e3]; omega

/-! ## What a point writes back, and the whole array -/

/-- What point t writes back is block t of the rows-times-matrix array: entry (p, q) of the body's block is row
    16000·t + p of the first operand against column q of the second. -/
theorem edgeBlock2_flushed (c : Dev nD) (t : Fin cfg2.N) :
    (dat2 (F := Ideal) V c).flushed 2 t
      = ((cfg2.win 2).blk t).view.read (Elt Ideal) (rowsTimes (n := 800000) (k := 64) (m := 32) (V c main_v14) (V c main_v15)) := by
  show (cfg2.win 2).cut (grid2.coords t) ((dat2 (F := Ideal) V c).after 2 t) = _
  rw [after2_2]
  unfold out2_2
  rw [View.canon_unit_zero originOffsets2]
  simp only [View.ld_unit_zero (S := S16000x64) originOffsets2, View.ld_unit_zero (S := S64x32) originOffsets2]
  obtain ⟨-, -, -, -, e4, e5⟩ := blockIndex2 t
  funext j
  obtain ⟨p, q, rfl⟩ : ∃ (p : Fin 16000) (q : Fin 32), j = ix2 p q := ⟨j 0, j 1, eq_ix2 j⟩
  have ht : t.val < 50 := lt_of_lt_of_eq t.isLt (N_2 : cfg2.N = 50)
  have hrow : 16000 * t.val + p.val < 800000 := by have := p.isLt; omega
  have hemb : ((cfg2.win 2).blk t).view.emb (ix2 p q) = (ix2 (⟨16000 * t.val + p.val, hrow⟩ : Fin 800000) q : S800000x32.Idx) := by
    funext a
    apply Fin.ext
    match a with
    | ⟨0, _⟩ => show win2_2.index t (0 : Fin 2) * 16000 + 1 * p.val = 16000 * t.val + p.val; rw [e4]; omega
    | ⟨1, _⟩ => show win2_2.index t (1 : Fin 2) * 32 + 1 * q.val = q.val; rw [e5]; omega
  rw [View.read_apply, hemb, rowsTimes_apply]
  refine (blockProduct2_apply (iblk2 (F := Ideal) V c 0 t) (iblk2 (F := Ideal) V c 1 t) p q).trans ?_
  refine Finset.sum_congr rfl fun k _ => ?_
  rw [leftBlock2_apply V c t (ix2 p k) (ix2 (⟨16000 * t.val + p.val, hrow⟩ : Fin 800000) k) rfl rfl,
    rightBlock2_apply V c t (ix2 k q)]

/-- An index of the output array lies in point t's block iff each coordinate lies in the block's range on its axis. -/
theorem edgeBlock2_mem (t : Fin cfg2.N) (i : S800000x32.Idx) :
    i ∈ ((cfg2.win 2).blk t).view.set ↔ ∀ a : Fin 2, win2_2.index t a * S16000x32.size a ≤ (i a).val ∧ (i a).val < win2_2.index t a * S16000x32.size a + S16000x32.size a := by
  show i ∈ ((View.whole main_v16).slice (win2_2.rect t)).set ↔ _
  rw [View.set_slice_whole, Rect.mem_set_unit]
  exact Iff.rfl

/-- The 50 blocks fill the array: row r lies in the block of point r / 16000, which is written back. -/
theorem edgeBlocks2_cover (i : S800000x32.Idx) :
    ∃ t : Fin cfg2.N, (cfg2.win 2).flush t = true ∧ i ∈ ((cfg2.win 2).blk t).view.set := by
  have hi0 : (i 0).val < 800000 := idx2_lt0 i
  have hi1 : (i 1).val < 32 := idx2_lt1 i
  have hN : cfg2.N = 50 := N_2
  have hlt : (i 0).val / 16000 < cfg2.N := by rw [hN]; omega
  obtain ⟨-, -, -, -, e4, e5⟩ := blockIndex2 ⟨(i 0).val / 16000, hlt⟩
  refine ⟨⟨(i 0).val / 16000, hlt⟩, flush2_2 _, ?_⟩
  rw [edgeBlock2_mem]
  intro a
  match a with
  | ⟨0, _⟩ =>
    show win2_2.index ⟨(i 0).val / 16000, hlt⟩ (0 : Fin 2) * 16000 ≤ (i 0).val ∧ (i 0).val < win2_2.index ⟨(i 0).val / 16000, hlt⟩ (0 : Fin 2) * 16000 + 16000
    rw [e4]
    show (i 0).val / 16000 * 16000 ≤ (i 0).val ∧ (i 0).val < (i 0).val / 16000 * 16000 + 16000
    omega
  | ⟨1, _⟩ =>
    show win2_2.index ⟨(i 0).val / 16000, hlt⟩ (1 : Fin 2) * 32 ≤ (i 1).val ∧ (i 1).val < win2_2.index ⟨(i 0).val / 16000, hlt⟩ (1 : Fin 2) * 32 + 32
    rw [e5]
    omega

/-- Region 2 (the second per-edge matmul, 50 blocks of 16000 edge rows): after the region the output array holds, at
    every index, the row of its first operand times its second operand. -/
theorem edgeProduct2 (c : Dev nD) :
    (dat2 (F := Ideal) V c).arrAt 2 cfg2.N = rowsTimes (n := 800000) (k := 64) (m := 32) (V c main_v14) (V c main_v15) :=
  (dat2 (F := Ideal) V c).arrAt_eq_of_cover 2 (rowsTimes (n := 800000) (k := 64) (m := 32) (V c main_v14) (V c main_v15))
    (fun t _ => edgeBlock2_flushed V c t) (fun i => edgeBlocks2_cover i)

end Cert.KernelIdeal.RegionValue

end
-- ==== Proof.KRelu.lean ====
import proofs.«402938_j41772851920952_2_alg».proof.Proof.Gen.KernelIdeal.Frame
import proofs.«402938_j41772851920952_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a rank-2 rectangle, as a vector literal, are the zero function. -/
theorem reluZeros : (![0, 0] : Fin 2 → Nat) = fun _ => 0 := funext fun a => by fin_cases a <;> rfl

/-- The body's result at row `p`, column `q` of a block: the block's entry plus the bias row's entry of that column,
    then the maximum with the zero word. -/
theorem reluPay_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  show max (shapeCast S5000x64 x0 shapeCasts_S5000x64_S5000x64 (ix2 p q)
      + broadcastTo S5000x64 (shapeCast S1x64 x1 shapeCasts_S1x64_S1x64) broadcasts_S1x64_S5000x64 (ix2 p q))
    (Ideal.ofBits .f32 0x00000000#32) = _
  rw [shapeCast_self, shapeCast_self]
  refine congrArg (fun z => max (x0 (ix2 p q) + z) (Ideal.ofBits .f32 0x00000000#32)) ?_
  refine broadcastTo_apply x1 broadcasts_S1x64_S5000x64 (ix2 p q) (ix2 (0 : Fin 1) q) (fun a => ?_)
  match a with
  | ⟨0, _⟩ => rfl
  | ⟨1, _⟩ => rfl

/-- The printed index maps, decided over the ten points: the input block moves with the output block (row block the
    point's number, column block zero), the bias window stays at block (0, 0), and the row block is below ten. -/
theorem reluIdx : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block below ten is some point's. -/
theorem reluOnto : ∀ b : Fin 10, ∃ t : Fin cfg1.N, win1_2.index t = ![b.val, 0] :=
  (by decide +kernel : ∀ b : Fin 10, ∃ t : Fin grid1.N, win1_2.index t = ![b.val, 0])

/-- What point `t` writes back is block `t` of bias-then-relu of the two operand arrays as the region finds them. -/
theorem reluFlushed_eq (c : Dev nD) (t : Fin cfg1.N) :
    (dat1 (F := Ideal) V c).flushed 2 t
      = ((cfg1.win 2).blk t).view.read (Elt Ideal)
          (biasRelu (n := 50000) (m := 64) (V c main_v10) (fun q : Fin 64 => V c main_v11 (ix2 (0 : Fin 1) q))) := by
  show (cfg1.win 2).cut (grid1.coords t) ((dat1 V c).after 2 t) = _
  rw [after1_2]
  unfold out1_2
  rw [View.canon_unit_zero reluZeros]
  simp only [View.ld_unit_zero (S := S5000x64) reluZeros, View.ld_unit_zero (S := S1x64) reluZeros]
  obtain ⟨e0, e1, e2, e3, e4, e5⟩ := reluIdx t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
    = biasRelu (n := 50000) (m := 64) (V c main_v10) (fun q : Fin 64 => V c main_v11 (ix2 (0 : Fin 1) q))
        (((cfg1.win 2).blk t).view.emb (ix2 p q))
  refine (reluPay_apply (iblk1 V c 0 t) (iblk1 V c 1 t) p q).trans ?_
  -- the input block's entry sits in the operand where the output block's entry sits in the result
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  -- the bias window's block is the whole 1-by-64 array, read at the column of the output's entry
  have h1 : ((cfg1.win 1).blk t).view.emb (ix2 (0 : Fin 1) q)
      = ix2 (0 : Fin 1) (col (((cfg1.win 2).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact congrArg (fun x => max x (Ideal.ofBits .f32 0x00000000#32))
    (congrArg₂ (· + ·) (congrArg (V c main_v10) h0) (congrArg (V c main_v11) h1))

/-- An index of the result array is in point `t`'s block iff each coordinate is in the block's range on its axis. -/
theorem reluMem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v12).slice (win1_2.rect t)).set ↔ _
  rw [View.set_slice_whole, Rect.mem_set_unit]
  exact Iff.rfl

/-- The ten blocks of 5000 rows cover the 50000 rows: row `r` is in the block of point `r / 5000`. -/
theorem reluCover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := reluOnto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [reluMem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- Region 1 (bias and relu, 10 blocks of 5000 node rows): after the region the output array holds, at every index,
    the maximum of zero and the aggregate plus the bias of its column (the bias is the 1-by-64 second operand). -/
theorem nodeRelu (c : Dev nD) :
    (dat1 (F := Ideal) V c).arrAt 2 cfg1.N
      = biasRelu (n := 50000) (m := 64) (V c main_v10) (fun q : Fin 64 => V c main_v11 (ix2 (0 : Fin 1) q)) :=
  (dat1 (F := Ideal) V c).arrAt_eq_of_cover 2
    (biasRelu (n := 50000) (m := 64) (V c main_v10) (fun q : Fin 64 => V c main_v11 (ix2 (0 : Fin 1) q)))
    (fun t _ => reluFlushed_eq V c t) reluCover

end Cert.KernelIdeal.RegionValue

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KLogSoftmax.lean ====
import proofs.«402938_j41772851920952_2_alg».proof.Proof.Gen.KernelIdeal.Frame
import proofs.«402938_j41772851920952_2_alg».proof.Proof.Spec
import proofs.«402938_j41772851920952_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body at one index of a block -/

/-- A row `[1, b]` broadcast to `[a, b]` reads, at `(r, c)`, the row at column `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- At the extended reals a lane maximum of an `[a, b]` array over its second axis reads at row `r` as the fold of
    `max` over the row, from the accumulator word's value. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => ?_
  refine congrArg src (funext fun ax => Fin.ext ?_)
  rw [Shape.Reduces.lift_val]
  match ax with
  | ⟨0, _⟩ => rfl
  | ⟨1, _⟩ => rfl

/-- Row `p` of a block of the aggregate with the bias row added: that row's logits. -/
def blockLogits (x0 : Vec Ideal S5000x32 .f32) (x1 : Vec Ideal S1x32 .f32) (p : Fin 5000) : Fin 32 → EReal :=
  fun k => x0 (ix2 p k) + x1 (ix2 (0 : Fin 1) k)

/-- The block plus the broadcast bias row, read at `(p, k)`. -/
theorem biased_apply (x0 : Vec Ideal S5000x32 .f32) (x1 : Vec Ideal S1x32 .f32) (p : Fin 5000) (k : Fin 32) :
    (addf (shapeCast S5000x32 x0 shapeCasts_S5000x32_S5000x32)
        (broadcastTo S5000x32 (shapeCast S1x32 x1 shapeCasts_S1x32_S1x32) broadcasts_S1x32_S5000x32) : FVec Ideal S5000x32 .f32) (ix2 p k)
      = blockLogits x0 x1 p k := by
  rw [shapeCast_self, shapeCast_self]
  exact congrArg (x0 (ix2 p k) + ·) (broadcastTo_1b_ab_apply x1 broadcasts_S1x32_S5000x32 p k)

/-- The row maximum of an array `z`, taken as a column and broadcast back, reads at `(p, q)` the maximum of row `p`. -/
theorem rowMaxBack_apply (z : FVec Ideal S5000x32 .f32) (hφ : FKind.Formats FTy.f32)
    (hacc : (0xFF800000#32 : BitVec FTy.f32.bits) = FKind.maximumf.neutral .f32 hφ) (p : Fin 5000) (q : Fin 32)
    (ζ : Fin 32 → EReal) (hz : ∀ k, z (ix2 p k) = ζ k) :
    broadcastTo S5000x32 (shapeCast S5000x1 (multiReduction .maximumf [1] S5000 z 0xFF800000#32 reduces_S5000x32_S5000 hφ hacc)
        shapeCasts_S5000_S5000x1) broadcasts_S5000x1_S5000x32 (ix2 p q) = rowMax ζ := by
  refine (Keepdims.broadcastTo_a1_ab_apply _ broadcasts_S5000x1_S5000x32 p q).trans ?_
  refine (Keepdims.shapeCast_a_a1_apply _ shapeCasts_S5000_S5000x1 p 0).trans ?_
  refine (laneMax_apply z _ reduces_S5000x32_S5000 hφ hacc p).trans ?_
  exact Finset.fold_congr fun k _ => hz k

/-- The logarithm of the row sums of `exp y`, taken as a column and broadcast back, reads at `(p, q)` the logarithm of
    the sum over row `p`. -/
theorem logSumBack_apply (y : FVec Ideal S5000x32 .f32) (hφ : FKind.Formats FTy.f32)
    (hacc : (0x00000000#32 : BitVec FTy.f32.bits) = FKind.add.neutral .f32 hφ) (p : Fin 5000) (q : Fin 32)
    (η : Fin 32 → EReal) (hy : ∀ k, y (ix2 p k) = η k) :
    broadcastTo S5000x32 (log (shapeCast S5000x1 (multiReduction .add [1] S5000 (exp y) 0x00000000#32 reduces_S5000x32_S5000 hφ hacc)
        shapeCasts_S5000_S5000x1)) broadcasts_S5000x1_S5000x32 (ix2 p q) = Ideal.log (∑ k : Fin 32, Ideal.exp (η k)) := by
  refine (Keepdims.broadcastTo_a1_ab_apply _ broadcasts_S5000x1_S5000x32 p q).trans ?_
  show Ideal.log _ = Ideal.log _
  refine congrArg Ideal.log ?_
  refine (Keepdims.shapeCast_a_a1_apply _ shapeCasts_S5000_S5000x1 p 0).trans ?_
  refine (Keepdims.laneSum_apply (exp y) _ reduces_S5000x32_S5000 hφ hacc p).trans ?_
  exact Finset.sum_congr rfl fun k _ => congrArg Ideal.exp (hy k)

/-- The body's payload at `(p, q)` of the block: with `z` the row's logits and `M` their maximum,
    `(z q − M) − log (∑ k, exp (z k − M))`. -/
theorem pay_apply (x0 : Vec Ideal S5000x32 .f32) (x1 : Vec Ideal S1x32 .f32) (p : Fin 5000) (q : Fin 32) :
    k3_pay1 x0 x1 (ix2 p q)
      = (blockLogits x0 x1 p q - rowMax (blockLogits x0 x1 p))
        - Ideal.log (∑ k : Fin 32, Ideal.exp (blockLogits x0 x1 p k - rowMax (blockLogits x0 x1 p))) := by
  unfold k3_pay1
  dsimp only
  have hY := fun k : Fin 32 =>
    (subf_apply _ _ _).trans (congrArg₂ (· - ·) (biased_apply x0 x1 p k) (rowMaxBack_apply _ (.inl rfl) rfl p k _ (biased_apply x0 x1 p)))
  refine (subf_apply _ _ _).trans ?_
  exact congrArg₂ (· - ·) (hY q) (logSumBack_apply _ (.inl rfl) rfl p q _ hY)

/-! ## The blocks at a grid point -/

theorem hz : (![0, 0] : Fin 2 → Nat) = fun _ => 0 := funext fun a => by fin_cases a <;> rfl

/-- The printed index maps, decided over the grid: at point `t` the aggregate's and the output's block index is
    `(t, 0)`, the bias row's `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A grid point is below 10. -/
theorem point_lt (t : Fin cfg3.N) : t.val < 10 := lt_of_lt_of_eq t.isLt N_3

/-- Row `p` of block `t` is row `5000 t + p` of the array. -/
abbrev nodeOf (t : Fin cfg3.N) (p : Fin 5000) : Fin 50000 := ⟨5000 * t.val + p.val, by have := point_lt t; have := p.isLt; omega⟩

/-- The aggregate's block at point `t`, at `(p, k)`: the aggregate at row `5000 t + p`, column `k`. -/
theorem aggBlock_apply (c : Dev nD) (t : Fin cfg3.N) (p : Fin 5000) (k : Fin 32) :
    (iblk3 V c 0 t : Vec Ideal S5000x32 .f32) (ix2 p k) = (V c main_v19 : S50000x32.Idx → EReal) (ix2 (nodeOf t p) k) := by
  obtain ⟨e0, e1, -⟩ := idx_facts t
  unfold iblk3
  rw [View.read_apply]
  show V c main_v19 _ = V c main_v19 _
  congr 1
  funext a
  apply Fin.ext
  match a with
  | ⟨0, _⟩ => show win3_0.index t (0 : Fin 2) * 5000 + 1 * p.val = 5000 * t.val + p.val; omega
  | ⟨1, _⟩ => show win3_0.index t (1 : Fin 2) * 32 + 1 * k.val = k.val; omega

/-- The bias window's block at any point is the whole 1-by-32 row. -/
theorem biasBlock_apply (c : Dev nD) (t : Fin cfg3.N) (k : Fin 32) :
    (iblk3 V c 1 t : Vec Ideal S1x32 .f32) (ix2 (0 : Fin 1) k) = (V c main_v20 : S1x32.Idx → EReal) (ix2 (0 : Fin 1) k) := by
  obtain ⟨-, -, e0, e1, -⟩ := idx_facts t
  unfold iblk3
  rw [View.read_apply]
  show V c main_v20 _ = V c main_v20 _
  congr 1
  funext a
  apply Fin.ext
  match a with
  | ⟨0, _⟩ => show win3_1.index t (0 : Fin 2) * 1 + 1 * 0 = 0; omega
  | ⟨1, _⟩ => show win3_1.index t (1 : Fin 2) * 32 + 1 * k.val = k.val; omega

/-! ## What a point writes back, and the array after the last point -/

/-- What the output array ends holding: the shifted log-softmax of the aggregate plus the bias, row by row. -/
abbrev nodeOut (c : Dev nD) : Arr2 50000 32 :=
  biasLogSoftmax (n := 50000) (m := 32) (V c main_v19) (fun q : Fin 32 => V c main_v20 (ix2 (0 : Fin 1) q))

/-- Row `p` of point `t`'s blocks has the logits of node `5000 t + p`. -/
theorem blockLogits_eq (c : Dev nD) (t : Fin cfg3.N) (p : Fin 5000) :
    blockLogits (iblk3 V c 0 t) (iblk3 V c 1 t) p
      = logits (n := 50000) (m := 32) (V c main_v19) (fun q : Fin 32 => V c main_v20 (ix2 (0 : Fin 1) q)) (nodeOf t p) :=
  funext fun k => congrArg₂ (· + ·) (aggBlock_apply V c t p k) (biasBlock_apply V c t k)

/-- The body's result at `(p, q)` of point `t`'s block is the output function at row `5000 t + p`, column `q`. -/
theorem point_apply (c : Dev nD) (t : Fin cfg3.N) (p : Fin 5000) (q : Fin 32) :
    k3_pay1 (iblk3 V c 0 t) (iblk3 V c 1 t) (ix2 p q) = nodeOut V c (ix2 (nodeOf t p) q) := by
  refine (pay_apply (iblk3 V c 0 t) (iblk3 V c 1 t) p q).trans ?_
  rw [blockLogits_eq V c t p]
  rfl

/-- Index `(p, q)` of the output's block at point `t` is index `(5000 t + p, q)` of the array. -/
theorem outBlock_emb (t : Fin cfg3.N) (p : Fin 5000) (q : Fin 32) :
    ((cfg3.win 2).blk t).view.emb (ix2 p q) = (ix2 (nodeOf t p) q : S50000x32.Idx) := by
  obtain ⟨-, -, -, -, e0, e1⟩ := idx_facts t
  funext a
  apply Fin.ext
  match a with
  | ⟨0, _⟩ => show win3_2.index t (0 : Fin 2) * 5000 + 1 * p.val = 5000 * t.val + p.val; omega
  | ⟨1, _⟩ => show win3_2.index t (1 : Fin 2) * 32 + 1 * q.val = q.val; omega

/-- What point `t` writes back is block `t` of the output function. -/
theorem flushed_eq (c : Dev nD) (t : Fin cfg3.N) :
    (dat3 V c).flushed 2 t = ((cfg3.win 2).blk t).view.read (Elt Ideal) (nodeOut V c) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  refine (point_apply V c t p q).trans ?_
  exact (congrArg (nodeOut V c) (outBlock_emb t p q)).symm

/-- An index of the array is in point `t`'s block iff each coordinate is in the block's range on its axis. -/
theorem mem_blk (t : Fin cfg3.N) (i : S50000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v21).slice (win3_2.rect t)).set ↔ _
  rw [View.set_slice_whole, Rect.mem_set_unit]
  exact Iff.rfl

/-- The ten blocks of 5000 rows cover the array: index `(v, j)` is in the block of point `v / 5000`. -/
theorem covered (i : S50000x32.Idx) :
    ∃ t : Fin cfg3.N, (cfg3.win 2).flush t = true ∧ i ∈ ((cfg3.win 2).blk t).view.set := by
  have hi0 : (i 0).val < 50000 := idx2_lt0 i
  have hi1 : (i 1).val < 32 := idx2_lt1 i
  have ht : (i 0).val / 5000 < cfg3.N := lt_of_lt_of_eq (by omega : (i 0).val / 5000 < 10) N_3.symm
  obtain ⟨-, -, -, -, e0, e1⟩ := idx_facts ⟨(i 0).val / 5000, ht⟩
  have e0' : win3_2.index ⟨(i 0).val / 5000, ht⟩ (0 : Fin 2) = (i 0).val / 5000 := e0
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    omega

/-- Region 3 (bias and log-softmax, 10 blocks of 5000 node rows): after the region the output array holds, at every
    index, the shifted log-softmax of its row of logits (the aggregate plus the 1-by-32 bias). -/
theorem nodeLogSoftmax (c : Dev nD) :
    (dat3 (F := Ideal) V c).arrAt 2 cfg3.N
      = biasLogSoftmax (n := 50000) (m := 32) (V c main_v19) (fun q : Fin 32 => V c main_v20 (ix2 (0 : Fin 1) q)) :=
  (dat3 V c).arrAt_eq_of_cover 2 (nodeOut V c) (fun t _ => flushed_eq V c t) covered

end Cert.KernelIdeal.RegionValue

end
-- ==== Proof.TakeMask.lean ====
import proofs.«402938_j41772851920952_2_alg».proof.Defs
import proofs.«402938_j41772851920952_2_alg».proof.Proof.Gen.KernelIdeal
import proofs.«402938_j41772851920952_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.KernelIdeal.TakeMask

open Cert.KernelIdeal Cert.KernelIdeal.Gen
open Idealize.ShloMosaic Idealize.ShloMosaic.TcCoe Idealize.ShloMosaic.ValueIdx Idealize.SL.Sem

/-- The source-node row of the edge list: row 0 of the 2-by-800000 integer input, as a length-800000 array. -/
def srcRow (x1 : IVec S2x800000 32) : IVec S800000 32 :=
  shapeCast S800000 (extractStridedSlice S1x800000 ![0, 0] x1 slices_S2x800000_S1x800000_0_0) shapeCasts_S1x800000_S800000

/-- A negative index counts from the end: 50000 is added to it once. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The gather's start indices: the wrapped indices as an 800000-by-1 array. -/
def startIdx (s : IVec S800000 32) : IVec S800000x1 32 :=
  broadcastInDim S800000x1 ![0] bcast_S800000_S800000x1_0 (wrapped s)

/-- Per edge, whether the start index lies in [0, 49999]: the conjunction over the one index column. -/
def inRange (s : IVec S800000 32) : IVec S800000 1 :=
  Host.reduce IntOp.andi
    (andi (cmpi .sge (startIdx s) (broadcastInDim S800000x1 ![] bcast_S_S800000x1 (constantI S_ 32 0#32)))
      (cmpi .sle (startIdx s) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- Under the precondition every source index is a node: read as a signed integer it lies in [0, 50000). -/
theorem src_in_range (m : (ℓ : Loc nD τ sig) → Buf (Elt Ideal) ℓ) (hpre : Cert.Pre_KernelIdeal m) (c : Dev nD) (e : S800000.Idx) :
    0 ≤ (srcRow (m ((c.tc : Thread nD τ).loc main_arg1)) e).toInt ∧ (srcRow (m ((c.tc : Thread nD τ).loc main_arg1)) e).toInt < 50000 := by
  -- the precondition at its one index is a conjunction of bits; its last conjunct is the reduce-and over the edges
  have h := congrFun (hpre c) ValueIdx.ix0
  have h33 := (IntOp.andi_eq_one.1 h).2
  haveI : Subsingleton (⟨0, ![]⟩ : Shape).Idx := ⟨fun a b => funext fun d => d.elim0⟩
  -- so the bit of every edge is one, and that bit is the conjunction of the two signed comparisons
  have he := Host.reduce_andi_all _ _ _ _ _ h33 e
  obtain ⟨h1, h2⟩ := IntOp.andi_eq_one.1 he
  have h1' : (0#32 : BitVec 32).toInt ≤ (srcRow (m ((c.tc : Thread nD τ).loc main_arg1)) e).toInt := IntOp.cmpi_sge.1 h1
  have h2' : (srcRow (m ((c.tc : Thread nD τ).loc main_arg1)) e).toInt < (50000#32 : BitVec 32).toInt := IntOp.cmpi_slt.1 h2
  have z0 : (0#32 : BitVec 32).toInt = 0 := by decide
  have z5 : (50000#32 : BitVec 32).toInt = 50000 := by
    have := StableHlo.Predicate.toInt_ofNat_small 50000 (by norm_num)
    exact_mod_cast this
  rw [z0] at h1'
  rw [z5] at h2'
  exact ⟨h1', h2'⟩

/-- A left fold of the bitwise and, from 1, over bits that are all 1, is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- An index already in [0, 50000) is not negative, so the wrap leaves it as it is. -/
private theorem wrapped_apply (s : IVec S800000 32) (hs : ∀ e : S800000.Idx, 0 ≤ (s e).toInt ∧ (s e).toInt < 50000)
    (k : S800000.Idx) : wrapped s k = s k := by
  have z0 : (0#32 : BitVec 32).toInt = 0 := by decide
  have hlt : IntOp.cmpi .slt (s k) 0#32 = 0#1 := eq_zero_of_ne_one fun h => by
    have h' := IntOp.cmpi_slt.1 h
    rw [z0] at h'
    exact absurd (hs k).1 (not_le.2 h')
  show Scalar.select (IntOp.cmpi .slt (s k) 0#32) (IntOp.addi (s k) 50000#32) (s k) = s k
  rw [hlt]
  exact select_zero _ _

/-- So at every position of the index column both bounds hold. -/
private theorem bounds_apply (s : IVec S800000 32) (hs : ∀ e : S800000.Idx, 0 ≤ (s e).toInt ∧ (s e).toInt < 50000)
    (i : S800000x1.Idx) :
    (andi (cmpi .sge (startIdx s) (broadcastInDim S800000x1 ![] bcast_S_S800000x1 (constantI S_ 32 0#32)))
      (cmpi .sle (startIdx s) (broadcastInDim S800000x1 ![0, 1] bcast_S1x1_S800000x1_0_1 (broadcastInDim S1x1 ![1] bcast_S1_S1x1_1 (constantI S1 32 49999#32))))) i = 1#1 := by
  obtain ⟨k, hk⟩ : ∃ k : S800000.Idx, startIdx s i = wrapped s k := ⟨_, rfl⟩
  have z0 : (0#32 : BitVec 32).toInt = 0 := by decide
  have z4 : (49999#32 : BitVec 32).toInt = 49999 := by
    have := StableHlo.Predicate.toInt_ofNat_small 49999 (by norm_num)
    exact_mod_cast this
  show IntOp.andi (IntOp.cmpi .sge (startIdx s i) 0#32) (IntOp.cmpi .sle (startIdx s i) 49999#32) = 1#1
  rw [hk, wrapped_apply s hs k]
  have hge : IntOp.cmpi .sge (s k) 0#32 = 1#1 := IntOp.cmpi_sge.2 (by rw [z0]; exact (hs k).1)
  have hle : IntOp.cmpi .sle (s k) 49999#32 = 1#1 := IntOp.cmpi_sle.2 (by rw [z4]; have := (hs k).2; omega)
  rw [hge, hle]
  decide

/-- When every index is a node, the in-range test holds at every edge. -/
theorem inRange_ones (s : IVec S800000 32) (hs : ∀ e : S800000.Idx, 0 ≤ (s e).toInt ∧ (s e).toInt < 50000) :
    inRange s = fun _ => 1#1 := by
  funext e
  unfold inRange
  rw [Host.reduce_eq_foldl]
  exact foldl_andi_ones _ (bounds_apply s hs) _

/-- So the first layer's masked gather is the gather itself: nothing is replaced by the fill value. -/
theorem select_inRange96 (s : IVec S800000 32) (hs : ∀ e : S800000.Idx, 0 ≤ (s e).toInt ∧ (s e).toInt < 50000)
    (g fill : FVec Ideal S800000x96 .f32) :
    select (broadcastInDim S800000x96 ![0] bcast_S800000_S800000x96_0 (inRange s)) g fill = g := by
  rw [inRange_ones s hs]
  funext i
  exact select_one (g i) (fill i)

/-- And so is the second layer's. -/
theorem select_inRange64 (s : IVec S800000 32) (hs : ∀ e : S800000.Idx, 0 ≤ (s e).toInt ∧ (s e).toInt < 50000)
    (g fill : FVec Ideal S800000x64 .f32) :
    select (broadcastInDim S800000x64 ![0] bcast_S800000_S800000x64_0 (inRange s)) g fill = g := by
  rw [inRange_ones s hs]
  funext i
  exact select_one (g i) (fill i)

end Cert.KernelIdeal.TakeMask

end
-- ==== Proof.KStages.lean ====
/-
  The kernel's program outside its four pipelined regions, as functions of whole arrays.

  Between the regions the program slices the edge list into its source and target rows, gathers node rows at the
  sources (with a fill value where an index would be out of range), narrows the gathered rows and the weights to the
  matmul's input format, sums the per-edge products into their target nodes, and lays the bias out as a one-row matrix.
  Each of these is named here once, for any float interpretation; at the exact interpretation the whole program's
  result is then one closed function of its six inputs, `output`.
-/
import proofs.«402938_j41772851920952_2_alg».proof.Proof.TakeMask
import proofs.«402938_j41772851920952_2_alg».proof.Proof.Spec

set_option maxRecDepth 16384

noncomputable section

namespace Cert.KernelIdeal.Stages

open Cert.KernelIdeal Cert.KernelIdeal.Gen Cert.KernelIdeal.TakeMask Cert.Gcn
open Idealize.ShloMosaic Idealize.ShloMosaic.TcCoe Idealize.ShloMosaic.ValueIdx Idealize.SL.Sem

variable {F : FTy → Type} [FloatOps F]

/-- The target-node row of the edge list: row 1 of the integer input, as a length-800000 array. -/
def dstRow (x1 : IVec S2x800000 32) : IVec S800000 32 :=
  shapeCast S800000 (extractStridedSlice S1x800000 ![1, 0] x1 slices_S2x800000_S1x800000_1_0) shapeCasts_S1x800000_S800000

/-- The first layer's gather of node rows at the edges' sources, with out-of-range reads replaced by the fill word. -/
def maskedGather96 (x : FVec F S50000x96 .f32) (s : IVec S800000 32) : FVec F S800000x96 .f32 :=
  select (broadcastInDim S800000x96 ![0] bcast_S800000_S800000x96_0 (inRange s))
    (Host.gather gather_S50000x96_S800000x1_S800000x96_1_0_n_n_0_1_196 x (startIdx s))
    (broadcastInDim S800000x96 ![] bcast_S_S800000x96 (constant (F := F) S_ .f32 0x7FC00000#32))

/-- The same for the second layer, over the 64 hidden features. -/
def maskedGather64 (x : FVec F S50000x64 .f32) (s : IVec S800000 32) : FVec F S800000x64 .f32 :=
  select (broadcastInDim S800000x64 ![0] bcast_S800000_S800000x64_0 (inRange s))
    (Host.gather gather_S50000x64_S800000x1_S800000x64_1_0_n_n_0_1_164 x (startIdx s))
    (broadcastInDim S800000x64 ![] bcast_S_S800000x64 (constant (F := F) S_ .f32 0x7FC00000#32))

/-- The per-edge rows `u` summed into their target nodes `d`, starting from zero: the first layer's 64 columns. -/
def edgeSum64 (d : IVec S800000 32) (u : FVec F S800000x64 .f32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 d) u

/-- The same for the second layer's 32 columns. -/
def edgeSum32 (d : IVec S800000 32) (u : FVec F S800000x32 .f32) : FVec F S50000x32 .f32 :=
  Host.scatterAdd scatter_S50000x32_S800000x1_S800000x32_1_0_0_1
    (broadcastInDim S50000x32 ![] bcast_S_S50000x32 (constant (F := F) S_ .f32 0x00000000#32))
    (broadcastInDim S800000x1 ![0] bcast_S800000_S800000x1_0 d) u

/-- The first bias laid out as a 1-by-64 matrix. -/
def biasRow64 (b : FVec F S64 .f32) : FVec F S1x64 .f32 := shapeCast S1x64 b shapeCasts_S64_S1x64

/-- The second bias laid out as a 1-by-32 matrix. -/
def biasRow32 (b : FVec F S32 .f32) : FVec F S1x32 .f32 := shapeCast S1x32 b shapeCasts_S32_S1x32

/-- The hidden layer at the exact interpretation: gather at the sources, narrow, multiply by the narrowed first weight
    matrix, sum into the targets, add the bias and take the maximum with zero. -/
def hidden (a0 : FVec Ideal S50000x96 .f32) (a1 : IVec S2x800000 32) (a2 : FVec Ideal S96x64 .f32)
    (a3 : FVec Ideal S64 .f32) : FVec Ideal S50000x64 .f32 :=
  biasRelu (n := 50000) (m := 64)
    (edgeSum64 (F := Ideal) (dstRow a1)
      (rowsTimes (n := 800000) (k := 96) (m := 64)
        (truncf .bf16 (maskedGather96 (F := Ideal) a0 (srcRow a1)) bitsLt_bf16_f32)
        (truncf .bf16 a2 bitsLt_bf16_f32)))
    (fun q : Fin 64 => biasRow64 (F := Ideal) a3 (ix2 (0 : Fin 1) q))

/-- The program's result at the exact interpretation: the same steps over the hidden layer with the second weight
    matrix and bias, ending in the row-wise log-softmax. -/
def output (a0 : FVec Ideal S50000x96 .f32) (a1 : IVec S2x800000 32) (a2 : FVec Ideal S96x64 .f32)
    (a3 : FVec Ideal S64 .f32) (a4 : FVec Ideal S64x32 .f32) (a5 : FVec Ideal S32 .f32) : FVec Ideal S50000x32 .f32 :=
  biasLogSoftmax (n := 50000) (m := 32)
    (edgeSum32 (F := Ideal) (dstRow a1)
      (rowsTimes (n := 800000) (k := 64) (m := 32)
        (truncf .bf16 (maskedGather64 (F := Ideal) (hidden a0 a1 a2 a3) (srcRow a1)) bitsLt_bf16_f32)
        (truncf .bf16 a4 bitsLt_bf16_f32)))
    (fun q : Fin 32 => biasRow32 (F := Ideal) a5 (ix2 (0 : Fin 1) q))

end Cert.KernelIdeal.Stages

end
-- ==== Proof.KTake.lean ====
/-
  The two masked gathers of the kernel's program, evaluated: after the stretch of host operations that jnp.take
  lowers to, the gathered buffer holds `maskedGather96` (first layer) or `maskedGather64` (second layer) of the
  node-feature buffer and the source-row buffer the stretch started from.
-/
import proofs.«402938_j41772851920952_2_alg».proof.Proof.Gen.KernelIdeal.Launch
import proofs.«402938_j41772851920952_2_alg».proof.Proof.KStages
import Idealize.ShloMosaic.Lib.StableHlo.Run

set_option maxRecDepth 16384

noncomputable section

namespace Cert.KernelIdeal.Stretch

open Cert.KernelIdeal Cert.KernelIdeal.Gen Cert.KernelIdeal.TakeMask Cert.KernelIdeal.Stages
open Idealize.ShloMosaic Idealize.ShloMosaic.TcCoe Idealize.SL.Sem Idealize.ShloMosaic.StableHlo

variable {F : FTy → Type} [FloatOps F]

/-- Contents carried to a typed reference's buffer and read back from it are the contents: the two transports are
    along an equality of types and its inverse. -/
private theorem ofBuf_toBuf {Val : EltTy → Type} {T : BufTy} (x : StableHlo.TRef sig T) (v : T.Contents Val) :
    x.ofBuf (x.toBuf v) = v := by
  obtain ⟨r, h, h1, h2⟩ := x
  subst h
  rfl

/-- After the first take's 23 operations the gathered buffer holds the masked gather of the node features at the source row. -/
theorem take1_eval (V : Valuation τ sig (Elt F)) :
    StableHlo.after (hostOps0_1 (F := F)) V (Proc.devRef .tc main_v4)
      = maskedGather96 (V (Proc.devRef .tc main_arg0)) (V (Proc.devRef .tc main_v1)) := by
  -- the contents of the gathered buffer, as the operations' functions composed over the two buffers read
  after_results_simp
  generalize (V (Proc.devRef .tc main_arg0)) = x
  generalize (V (Proc.devRef .tc main_v1)) = s
  -- every intermediate value is written through its typed reference and read back through the same one
  simp only [ofBuf_toBuf]
  -- the two buffers read and the buffer written have the types their typed references carry, by computation
  have hx : (StableHlo.TRef.of main_arg0 : StableHlo.TRef sig ⟨S50000x96, .f32⟩).ofBuf x = x := rfl
  have hs : (StableHlo.TRef.of main_v1 : StableHlo.TRef sig ⟨S800000, .i32⟩).ofBuf s = s := rfl
  have hy : ∀ v : (⟨S800000x96, .f32⟩ : BufTy).Contents (Elt F),
      (StableHlo.TRef.of main_v4 : StableHlo.TRef sig ⟨S800000x96, .f32⟩).toBuf v = v := fun v => rfl
  rw [hy, hx, hs]
  -- what is left is the masked gather, its in-range test, start indices and wrap written out, term for term
  unfold maskedGather96 inRange startIdx wrapped
  with_reducible rfl

/-- After the second take's 23 operations the gathered buffer holds the masked gather of the hidden layer at the source row. -/
theorem take2_eval (V : Valuation τ sig (Elt F)) :
    StableHlo.after (hostOps2 (F := F)) V (Proc.devRef .tc main_v13)
      = maskedGather64 (V (Proc.devRef .tc main_v12)) (V (Proc.devRef .tc main_v1)) := by
  -- as for the first take, over the 64 hidden features
  after_results_simp
  generalize (V (Proc.devRef .tc main_v12)) = x
  generalize (V (Proc.devRef .tc main_v1)) = s
  simp only [ofBuf_toBuf]
  have hx : (StableHlo.TRef.of main_v12 : StableHlo.TRef sig ⟨S50000x64, .f32⟩).ofBuf x = x := rfl
  have hs : (StableHlo.TRef.of main_v1 : StableHlo.TRef sig ⟨S800000, .i32⟩).ofBuf s = s := rfl
  have hy : ∀ v : (⟨S800000x64, .f32⟩ : BufTy).Contents (Elt F),
      (StableHlo.TRef.of main_v13 : StableHlo.TRef sig ⟨S800000x64, .f32⟩).toBuf v = v := fun v => rfl
  rw [hy, hx, hs]
  unfold maskedGather64 inRange startIdx wrapped
  with_reducible rfl

end Cert.KernelIdeal.Stretch

end
-- ==== Proof.KStretch.lean ====
/-
  The short stretches of host operations of the kernel's program, evaluated from arbitrary buffer contents: the two
  slices of the edge list, the two narrowings before each matmul, the sum into target nodes and the bias row before
  each per-node region; and, for every stretch, that a buffer none of its operations writes keeps its contents.
-/
import proofs.«402938_j41772851920952_2_alg».proof.Proof.Gen.KernelIdeal.Launch
import proofs.«402938_j41772851920952_2_alg».proof.Proof.KStages
import Idealize.ShloMosaic.Lib.StableHlo.Run

set_option maxRecDepth 16384

noncomputable section

namespace Cert.KernelIdeal.Stretch

open Cert.KernelIdeal Cert.KernelIdeal.Gen Cert.KernelIdeal.TakeMask Cert.KernelIdeal.Stages
open Idealize.ShloMosaic Idealize.ShloMosaic.TcCoe Idealize.SL.Sem Idealize.ShloMosaic.StableHlo

variable {F : FTy → Type} [FloatOps F]

/-! ## Values -/

theorem slices_src (V : Valuation τ sig (Elt F)) :
    StableHlo.after (hostOps0 (F := F)) V (Proc.devRef .tc main_v1) = srcRow (V (Proc.devRef .tc main_arg1)) := by
  after_results
  rfl

theorem slices_dst (V : Valuation τ sig (Elt F)) :
    StableHlo.after (hostOps0 (F := F)) V (Proc.devRef .tc main_v3) = dstRow (V (Proc.devRef .tc main_arg1)) := by
  after_results
  rfl

theorem narrow1_rows (V : Valuation τ sig (Elt F)) :
    StableHlo.after (hostOps0_2 (F := F)) V (Proc.devRef .tc main_v5)
      = (truncf .bf16 (V (Proc.devRef .tc main_v4) : FVec F S800000x96 .f32) bitsLt_bf16_f32 : FVec F S800000x96 .bf16) := by
  after_results

theorem narrow1_weights (V : Valuation τ sig (Elt F)) :
    StableHlo.after (hostOps0_2 (F := F)) V (Proc.devRef .tc main_v6)
      = (truncf .bf16 (V (Proc.devRef .tc main_arg2) : FVec F S96x64 .f32) bitsLt_bf16_f32 : FVec F S96x64 .bf16) := by
  after_results

theorem sum1_eval (V : Valuation τ sig (Elt F)) :
    StableHlo.after (hostOps1 (F := F)) V (Proc.devRef .tc main_v10)
      = edgeSum64 (V (Proc.devRef .tc main_v3)) (V (Proc.devRef .tc main_v7)) := by
  after_results
  rfl

theorem bias1_eval (V : Valuation τ sig (Elt F)) :
    StableHlo.after (hostOps1 (F := F)) V (Proc.devRef .tc main_v11) = biasRow64 (V (Proc.devRef .tc main_arg3)) := by
  after_results
  rfl

theorem narrow2_rows (V : Valuation τ sig (Elt F)) :
    StableHlo.after (hostOps2_1 (F := F)) V (Proc.devRef .tc main_v14)
      = (truncf .bf16 (V (Proc.devRef .tc main_v13) : FVec F S800000x64 .f32) bitsLt_bf16_f32 : FVec F S800000x64 .bf16) := by
  after_results

theorem narrow2_weights (V : Valuation τ sig (Elt F)) :
    StableHlo.after (hostOps2_1 (F := F)) V (Proc.devRef .tc main_v15)
      = (truncf .bf16 (V (Proc.devRef .tc main_arg4) : FVec F S64x32 .f32) bitsLt_bf16_f32 : FVec F S64x32 .bf16) := by
  after_results

theorem sum2_eval (V : Valuation τ sig (Elt F)) :
    StableHlo.after (hostOps3 (F := F)) V (Proc.devRef .tc main_v19)
      = edgeSum32 (V (Proc.devRef .tc main_v3)) (V (Proc.devRef .tc main_v16)) := by
  after_results
  rfl

theorem bias2_eval (V : Valuation τ sig (Elt F)) :
    StableHlo.after (hostOps3 (F := F)) V (Proc.devRef .tc main_v20) = biasRow32 (V (Proc.devRef .tc main_arg5)) := by
  after_results
  rfl

/-! ## What each stretch leaves alone -/

/-- The buffers the two slices write. -/
abbrev hostOps0_W : List (Ref sig .tc) := [main_v0, main_v1, main_v2, main_v3]
/-- The buffers the first take writes. -/
abbrev hostOps0_1_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
/-- The buffers the first pair of narrowings writes. -/
abbrev hostOps0_2_W : List (Ref sig .tc) := [main_v5, main_v6]
/-- The buffers the first sum-and-bias stretch writes. -/
abbrev hostOps1_W : List (Ref sig .tc) := [main_cst, main_v8, main_v9, main_v10, main_v11]
/-- The buffers the second take writes. -/
abbrev hostOps2_W : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v13]
/-- The buffers the second pair of narrowings writes. -/
abbrev hostOps2_1_W : List (Ref sig .tc) := [main_v14, main_v15]
/-- The buffers the second sum-and-bias stretch writes. -/
abbrev hostOps3_W : List (Ref sig .tc) := [main_cst_0, main_v17, main_v18, main_v19, main_v20]

theorem hostOps0_keeps (V : Valuation τ sig (Elt F)) {r : Ref sig .tc} (h : r ∉ hostOps0_W) :
    StableHlo.after (hostOps0 (F := F)) V (Proc.devRef .tc r) = V (Proc.devRef .tc r) := by
  refine StableHlo.after_of_writes_sub (hostOps0 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_1_keeps (V : Valuation τ sig (Elt F)) {r : Ref sig .tc} (h : r ∉ hostOps0_1_W) :
    StableHlo.after (hostOps0_1 (F := F)) V (Proc.devRef .tc r) = V (Proc.devRef .tc r) := by
  refine StableHlo.after_of_writes_sub (hostOps0_1 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_2_keeps (V : Valuation τ sig (Elt F)) {r : Ref sig .tc} (h : r ∉ hostOps0_2_W) :
    StableHlo.after (hostOps0_2 (F := F)) V (Proc.devRef .tc r) = V (Proc.devRef .tc r) := by
  refine StableHlo.after_of_writes_sub (hostOps0_2 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_keeps (V : Valuation τ sig (Elt F)) {r : Ref sig .tc} (h : r ∉ hostOps1_W) :
    StableHlo.after (hostOps1 (F := F)) V (Proc.devRef .tc r) = V (Proc.devRef .tc r) := by
  refine StableHlo.after_of_writes_sub (hostOps1 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_keeps (V : Valuation τ sig (Elt F)) {r : Ref sig .tc} (h : r ∉ hostOps2_W) :
    StableHlo.after (hostOps2 (F := F)) V (Proc.devRef .tc r) = V (Proc.devRef .tc r) := by
  refine StableHlo.after_of_writes_sub (hostOps2 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_1_keeps (V : Valuation τ sig (Elt F)) {r : Ref sig .tc} (h : r ∉ hostOps2_1_W) :
    StableHlo.after (hostOps2_1 (F := F)) V (Proc.devRef .tc r) = V (Proc.devRef .tc r) := by
  refine StableHlo.after_of_writes_sub (hostOps2_1 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps3_keeps (V : Valuation τ sig (Elt F)) {r : Ref sig .tc} (h : r ∉ hostOps3_W) :
    StableHlo.after (hostOps3 (F := F)) V (Proc.devRef .tc r) = V (Proc.devRef .tc r) := by
  refine StableHlo.after_of_writes_sub (hostOps3 (F := F)) V ?_ h
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.KernelIdeal.Stretch

end
-- ==== Proof.KChain.lean ====
/-
  The kernel's program, boundary by boundary.

  The program alternates stretches of host operations with four pipelined regions. Starting from the launch memory,
  each stretch is evaluated at the buffers the next region reads, each region's output array is the function its body
  computes of the region's input arrays, and every buffer nobody writes in between is carried along unchanged. Composing
  the eleven steps, the result buffer after the last region is the closed form `Stages.output` of the six inputs.
-/
import proofs.«402938_j41772851920952_2_alg».proof.Proof.Gen.KernelIdeal.Frame
import proofs.«402938_j41772851920952_2_alg».proof.Proof.KMatmul1
import proofs.«402938_j41772851920952_2_alg».proof.Proof.KMatmul2
import proofs.«402938_j41772851920952_2_alg».proof.Proof.KRelu
import proofs.«402938_j41772851920952_2_alg».proof.Proof.KLogSoftmax
import proofs.«402938_j41772851920952_2_alg».proof.Proof.KStages
import proofs.«402938_j41772851920952_2_alg».proof.Proof.KTake
import proofs.«402938_j41772851920952_2_alg».proof.Proof.KStretch
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.TakeMask Cert.KernelIdeal.Stages Cert.KernelIdeal.Stretch
open Cert.KernelIdeal.RegionValue Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The node features at launch. -/
abbrev A0 (c : Dev nD) : FVec Ideal S50000x96 .f32 := m ((c.tc : Thread nD τ).loc main_arg0)
/-- The edge list at launch. -/
abbrev A1 (c : Dev nD) : IVec S2x800000 32 := m ((c.tc : Thread nD τ).loc main_arg1)
/-- The first weight matrix at launch. -/
abbrev A2 (c : Dev nD) : FVec Ideal S96x64 .f32 := m ((c.tc : Thread nD τ).loc main_arg2)
/-- The first bias at launch. -/
abbrev A3 (c : Dev nD) : FVec Ideal S64 .f32 := m ((c.tc : Thread nD τ).loc main_arg3)
/-- The second weight matrix at launch. -/
abbrev A4 (c : Dev nD) : FVec Ideal S64x32 .f32 := m ((c.tc : Thread nD τ).loc main_arg4)
/-- The second bias at launch. -/
abbrev A5 (c : Dev nD) : FVec Ideal S32 .f32 := m ((c.tc : Thread nD τ).loc main_arg5)

/-! ## After the two slices -/

theorem src_at1 (c : Dev nD) : W1 m ρ c (Proc.devRef .tc main_v1) = srcRow (A1 m c) := slices_src (W0 m ρ c)
theorem dst_at1 (c : Dev nD) : W1 m ρ c (Proc.devRef .tc main_v3) = dstRow (A1 m c) := slices_dst (W0 m ρ c)
theorem arg0_at1 (c : Dev nD) : W1 m ρ c (Proc.devRef .tc main_arg0) = A0 m c := hostOps0_keeps (W0 m ρ c) (by decide)
theorem arg2_at1 (c : Dev nD) : W1 m ρ c (Proc.devRef .tc main_arg2) = A2 m c := hostOps0_keeps (W0 m ρ c) (by decide)
theorem arg3_at1 (c : Dev nD) : W1 m ρ c (Proc.devRef .tc main_arg3) = A3 m c := hostOps0_keeps (W0 m ρ c) (by decide)
theorem arg4_at1 (c : Dev nD) : W1 m ρ c (Proc.devRef .tc main_arg4) = A4 m c := hostOps0_keeps (W0 m ρ c) (by decide)
theorem arg5_at1 (c : Dev nD) : W1 m ρ c (Proc.devRef .tc main_arg5) = A5 m c := hostOps0_keeps (W0 m ρ c) (by decide)

/-! ## Up to the first region's entry: the gather and the two narrowings -/

theorem gathered_at2 (c : Dev nD) :
    W2 m ρ c (Proc.devRef .tc main_v4) = maskedGather96 (F := Ideal) (A0 m c) (srcRow (A1 m c)) :=
  (take1_eval (W1 m ρ c)).trans (congrArg₂ (maskedGather96 (F := Ideal)) (arg0_at1 m ρ c) (src_at1 m ρ c))

theorem rows_at3 (c : Dev nD) :
    W3 m ρ c (Proc.devRef .tc main_v5)
      = (truncf .bf16 (maskedGather96 (F := Ideal) (A0 m c) (srcRow (A1 m c))) bitsLt_bf16_f32 : FVec Ideal S800000x96 .bf16) :=
  (narrow1_rows (W2 m ρ c)).trans
    (congrArg (fun x : FVec Ideal S800000x96 .f32 => (truncf .bf16 x bitsLt_bf16_f32 : FVec Ideal S800000x96 .bf16)) (gathered_at2 m ρ c))

theorem weights_at3 (c : Dev nD) :
    W3 m ρ c (Proc.devRef .tc main_v6) = (truncf .bf16 (A2 m c) bitsLt_bf16_f32 : FVec Ideal S96x64 .bf16) :=
  (narrow1_weights (W2 m ρ c)).trans
    (congrArg (fun x : FVec Ideal S96x64 .f32 => (truncf .bf16 x bitsLt_bf16_f32 : FVec Ideal S96x64 .bf16))
      ((hostOps0_1_keeps (W1 m ρ c) (by decide)).trans (arg2_at1 m ρ c)))

/-- A buffer that neither take, nor the narrowings, nor the first region writes still holds at the region's exit what
    it held after the slices. -/
theorem carried_1_4 (c : Dev nD) (b : Ref sig .tc) (h1 : b ∉ hostOps0_1_W) (h2 : b ∉ hostOps0_2_W)
    (h3 : ∀ w, Pipeline.arrRef spec0 w ≠ b) :
    W4 m ρ c (Proc.devRef .tc b) = W1 m ρ c (Proc.devRef .tc b) :=
  (W4_of_ne m ρ c b h3).trans ((hostOps0_2_keeps (W2 m ρ c) h2).trans (hostOps0_1_keeps (W1 m ρ c) h1))

/-! ## The first region and the stretch after it -/

theorem product_at4 (c : Dev nD) :
    W4 m ρ c (Proc.devRef .tc main_v7)
      = rowsTimes (n := 800000) (k := 96) (m := 64)
          (truncf .bf16 (maskedGather96 (F := Ideal) (A0 m c) (srcRow (A1 m c))) bitsLt_bf16_f32)
          (truncf .bf16 (A2 m c) bitsLt_bf16_f32) :=
  (W4_arr m ρ c 2).trans ((edgeProduct1 (V3 m ρ) c).trans
    (congrArg₂ (rowsTimes (n := 800000) (k := 96) (m := 64)) (rows_at3 m ρ c) (weights_at3 m ρ c)))

theorem summed_at5 (c : Dev nD) :
    W5 m ρ c (Proc.devRef .tc main_v10)
      = edgeSum64 (F := Ideal) (dstRow (A1 m c))
          (rowsTimes (n := 800000) (k := 96) (m := 64)
            (truncf .bf16 (maskedGather96 (F := Ideal) (A0 m c) (srcRow (A1 m c))) bitsLt_bf16_f32)
            (truncf .bf16 (A2 m c) bitsLt_bf16_f32)) :=
  (sum1_eval (W4 m ρ c)).trans (congrArg₂ (edgeSum64 (F := Ideal))
    ((carried_1_4 m ρ c main_v3 (by decide) (by decide) (by decide)).trans (dst_at1 m ρ c)) (product_at4 m ρ c))

theorem bias_at5 (c : Dev nD) :
    W5 m ρ c (Proc.devRef .tc main_v11) = biasRow64 (F := Ideal) (A3 m c) :=
  (bias1_eval (W4 m ρ c)).trans (congrArg (biasRow64 (F := Ideal))
    ((carried_1_4 m ρ c main_arg3 (by decide) (by decide) (by decide)).trans (arg3_at1 m ρ c)))

/-- A buffer untouched from the slices to the second region's exit. -/
theorem carried_1_6 (c : Dev nD) (b : Ref sig .tc) (h1 : b ∉ hostOps0_1_W) (h2 : b ∉ hostOps0_2_W)
    (h3 : ∀ w, Pipeline.arrRef spec0 w ≠ b) (h4 : b ∉ hostOps1_W) (h5 : ∀ w, Pipeline.arrRef spec1 w ≠ b) :
    W6 m ρ c (Proc.devRef .tc b) = W1 m ρ c (Proc.devRef .tc b) :=
  (W6_of_ne m ρ c b h5).trans ((hostOps1_keeps (W4 m ρ c) h4).trans (carried_1_4 m ρ c b h1 h2 h3))

/-! ## The second region: the hidden layer -/

theorem hidden_at6 (c : Dev nD) :
    W6 m ρ c (Proc.devRef .tc main_v12) = hidden (A0 m c) (A1 m c) (A2 m c) (A3 m c) :=
  (W6_arr m ρ c 2).trans ((nodeRelu (V5 m ρ) c).trans
    (congrArg₂ (biasRelu (n := 50000) (m := 64)) (summed_at5 m ρ c)
      (funext fun q : Fin 64 => congrFun (bias_at5 m ρ c) (ix2 (0 : Fin 1) q))))

/-! ## Up to the third region's entry -/

theorem gathered_at7 (c : Dev nD) :
    W7 m ρ c (Proc.devRef .tc main_v13)
      = maskedGather64 (F := Ideal) (hidden (A0 m c) (A1 m c) (A2 m c) (A3 m c)) (srcRow (A1 m c)) :=
  (take2_eval (W6 m ρ c)).trans (congrArg₂ (maskedGather64 (F := Ideal)) (hidden_at6 m ρ c)
    ((carried_1_6 m ρ c main_v1 (by decide) (by decide) (by decide) (by decide) (by decide)).trans (src_at1 m ρ c)))

theorem rows_at8 (c : Dev nD) :
    W8 m ρ c (Proc.devRef .tc main_v14)
      = (truncf .bf16 (maskedGather64 (F := Ideal) (hidden (A0 m c) (A1 m c) (A2 m c) (A3 m c)) (srcRow (A1 m c))) bitsLt_bf16_f32 : FVec Ideal S800000x64 .bf16) :=
  (narrow2_rows (W7 m ρ c)).trans
    (congrArg (fun x : FVec Ideal S800000x64 .f32 => (truncf .bf16 x bitsLt_bf16_f32 : FVec Ideal S800000x64 .bf16)) (gathered_at7 m ρ c))

theorem weights_at8 (c : Dev nD) :
    W8 m ρ c (Proc.devRef .tc main_v15) = (truncf .bf16 (A4 m c) bitsLt_bf16_f32 : FVec Ideal S64x32 .bf16) :=
  (narrow2_weights (W7 m ρ c)).trans
    (congrArg (fun x : FVec Ideal S64x32 .f32 => (truncf .bf16 x bitsLt_bf16_f32 : FVec Ideal S64x32 .bf16))
      ((hostOps2_keeps (W6 m ρ c) (by decide)).trans
        ((carried_1_6 m ρ c main_arg4 (by decide) (by decide) (by decide) (by decide) (by decide)).trans (arg4_at1 m ρ c))))

/-- A buffer untouched from the slices to the third region's exit. -/
theorem carried_1_9 (c : Dev nD) (b : Ref sig .tc) (h1 : b ∉ hostOps0_1_W) (h2 : b ∉ hostOps0_2_W)
    (h3 : ∀ w, Pipeline.arrRef spec0 w ≠ b) (h4 : b ∉ hostOps1_W) (h5 : ∀ w, Pipeline.arrRef spec1 w ≠ b)
    (h6 : b ∉ hostOps2_W) (h7 : b ∉ hostOps2_1_W) (h8 : ∀ w, Pipeline.arrRef spec2 w ≠ b) :
    W9 m ρ c (Proc.devRef .tc b) = W1 m ρ c (Proc.devRef .tc b) :=
  (W9_of_ne m ρ c b h8).trans ((hostOps2_1_keeps (W7 m ρ c) h7).trans
    ((hostOps2_keeps (W6 m ρ c) h6).trans (carried_1_6 m ρ c b h1 h2 h3 h4 h5)))

/-! ## The third region and the stretch after it -/

theorem product_at9 (c : Dev nD) :
    W9 m ρ c (Proc.devRef .tc main_v16)
      = rowsTimes (n := 800000) (k := 64) (m := 32)
          (truncf .bf16 (maskedGather64 (F := Ideal) (hidden (A0 m c) (A1 m c) (A2 m c) (A3 m c)) (srcRow (A1 m c))) bitsLt_bf16_f32)
          (truncf .bf16 (A4 m c) bitsLt_bf16_f32) :=
  (W9_arr m ρ c 2).trans ((edgeProduct2 (V8 m ρ) c).trans
    (congrArg₂ (rowsTimes (n := 800000) (k := 64) (m := 32)) (rows_at8 m ρ c) (weights_at8 m ρ c)))

theorem summed_at10 (c : Dev nD) :
    W10 m ρ c (Proc.devRef .tc main_v19)
      = edgeSum32 (F := Ideal) (dstRow (A1 m c))
          (rowsTimes (n := 800000) (k := 64) (m := 32)
            (truncf .bf16 (maskedGather64 (F := Ideal) (hidden (A0 m c) (A1 m c) (A2 m c) (A3 m c)) (srcRow (A1 m c))) bitsLt_bf16_f32)
            (truncf .bf16 (A4 m c) bitsLt_bf16_f32)) :=
  (sum2_eval (W9 m ρ c)).trans (congrArg₂ (edgeSum32 (F := Ideal))
    ((carried_1_9 m ρ c main_v3 (by decide) (by decide) (by decide) (by decide) (by decide) (by decide) (by decide) (by decide)).trans (dst_at1 m ρ c))
    (product_at9 m ρ c))

theorem bias_at10 (c : Dev nD) :
    W10 m ρ c (Proc.devRef .tc main_v20) = biasRow32 (F := Ideal) (A5 m c) :=
  (bias2_eval (W9 m ρ c)).trans (congrArg (biasRow32 (F := Ideal))
    ((carried_1_9 m ρ c main_arg5 (by decide) (by decide) (by decide) (by decide) (by decide) (by decide) (by decide) (by decide)).trans (arg5_at1 m ρ c)))

/-! ## The last region: the result -/

/-- After the last region the result buffer holds the closed form of the six inputs. -/
theorem result_at11 (c : Dev nD) :
    W11 m ρ c (Proc.devRef .tc main_v21) = output (A0 m c) (A1 m c) (A2 m c) (A3 m c) (A4 m c) (A5 m c) :=
  (W11_arr m ρ c 2).trans ((nodeLogSoftmax (V10 m ρ) c).trans
    (congrArg₂ (biasLogSoftmax (n := 50000) (m := 32)) (summed_at10 m ρ c)
      (funext fun q : Fin 32 => congrFun (bias_at10 m ρ c) (ix2 (0 : Fin 1) q))))

end Cert.KernelIdeal.Chain

end
-- ==== Proof.RefEval.lean ====
import proofs.«402938_j41772851920952_2_alg».proof.Proof.RefRead
import Idealize.ShloMosaic.Lib.StableHlo.Run

set_option maxRecDepth 16384

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lists of operations run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! The 56 operations in five stretches: the first layer's edge-source indices (up to main_v9); the first layer
    (gather, product, sum into targets, bias, relu: up to main_v18); the second layer's indices (up to main_v24);
    the second layer up to the biased sums (main_v32); the row-wise log-softmax (main_v33). -/

abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)) ]

abbrev s2 : List (HloOp τ sig (Elt F)) :=
  [ binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    binary main_v10 main_arg2 main_v11 ((fun l r => Host.dotGeneral dot_S800000x96_S96x64_S800000x64_1_0_0_1_n_n none l r) : (⟨S800000x96, .f32⟩ : BufTy).Contents (Elt F) → (⟨S96x64, .f32⟩ : BufTy).Contents (Elt F) → (⟨S800000x64, .f32⟩ : BufTy).Contents (Elt F)),
    nullary main_cst (constant S_ .f32 0x00000000#32),
    unary main_cst main_v12 (broadcastInDim S50000x64 ![] bcast_S_S50000x64 : (⟨S_, .f32⟩ : BufTy).Contents (Elt F) → (⟨S50000x64, .f32⟩ : BufTy).Contents (Elt F)),
    unary main_v3 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S50000x64 ![0, 1] bcast_S1x64_S50000x64_0_1 : (⟨S1x64, .f32⟩ : BufTy).Contents (Elt F) → (⟨S50000x64, .f32⟩ : BufTy).Contents (Elt F)),
    binary main_v14 main_v16 main_v17 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v17) (TRef.of (T := ⟨S50000x64, .f32⟩) main_call0_v0) (TRef.of (T := ⟨S50000x64, .f32⟩) main_v18) maximumf ]

abbrev s3 : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)) ]

abbrev s4 : List (HloOp τ sig (Elt F)) :=
  [ binary main_v18 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v25 main_arg4 main_v26 ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)),
    nullary main_cst_3 (constant S_ .f32 0x00000000#32),
    unary main_cst_3 main_v27 (broadcastInDim S50000x32 ![] bcast_S_S50000x32 : (⟨S_, .f32⟩ : BufTy).Contents (Elt F) → (⟨S50000x32, .f32⟩ : BufTy).Contents (Elt F)),
    unary main_v3 main_v28 (broadcastInDim S800000x1 ![0] bcast_S800000_S800000x1_0 : (⟨S800000, .i32⟩ : BufTy).Contents (Elt F) → (⟨S800000x1, .i32⟩ : BufTy).Contents (Elt F)),
    ternary main_v27 main_v28 main_v26 main_v29 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    unary main_arg5 main_v30 (broadcastInDim S1x32 ![1] bcast_S32_S1x32_1 : (⟨S32, .f32⟩ : BufTy).Contents (Elt F) → (⟨S1x32, .f32⟩ : BufTy).Contents (Elt F)),
    unary main_v30 main_v31 (broadcastInDim S50000x32 ![0, 1] bcast_S1x32_S50000x32_0_1 : (⟨S1x32, .f32⟩ : BufTy).Contents (Elt F) → (⟨S50000x32, .f32⟩ : BufTy).Contents (Elt F)),
    binary main_v29 main_v31 main_v32 (addf : (⟨S50000x32, .f32⟩ : BufTy).Contents (Elt F) → (⟨S50000x32, .f32⟩ : BufTy).Contents (Elt F) → (⟨S50000x32, .f32⟩ : BufTy).Contents (Elt F)) ]

abbrev s5 : List (HloOp τ sig (Elt F)) :=
  [ TRef.nullary (TRef.of (T := ⟨S_, .f32⟩) main_call1_cst) (constant S_ .f32 0xFF800000#32),
    TRef.binary (TRef.of (T := ⟨S50000x32, .f32⟩) main_v32) (TRef.of (T := ⟨S_, .f32⟩) main_call1_cst) (TRef.of (T := ⟨S50000, .f32⟩) main_call1_v0) (fun x v => Host.reduce FloatOps.maximumf x v reducesTo_S50000x32_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x32, .f32⟩) main_call1_v4) (broadcastInDim S50000x32 ![0, 1] bcast_S50000x1_S50000x32_0_1),
    TRef.binary (TRef.of (T := ⟨S50000x32, .f32⟩) main_v32) (TRef.of (T := ⟨S50000x32, .f32⟩) main_call1_v4) (TRef.of (T := ⟨S50000x32, .f32⟩) main_call1_v5) subf,
    TRef.unary (TRef.of (T := ⟨S50000x32, .f32⟩) main_call1_v5) (TRef.of (T := ⟨S50000x32, .f32⟩) main_call1_v6) Host.exp,
    TRef.nullary (TRef.of (T := ⟨S_, .f32⟩) main_call1_cst_1) (constant S_ .f32 0x00000000#32),
    TRef.binary (TRef.of (T := ⟨S50000x32, .f32⟩) main_call1_v6) (TRef.of (T := ⟨S_, .f32⟩) main_call1_cst_1) (TRef.of (T := ⟨S50000, .f32⟩) main_call1_v7) (fun x v => Host.reduceAdd x v reducesTo_S50000x32_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x32, .f32⟩) main_call1_v10) (broadcastInDim S50000x32 ![0, 1] bcast_S50000x1_S50000x32_0_1),
    TRef.binary (TRef.of (T := ⟨S50000x32, .f32⟩) main_call1_v5) (TRef.of (T := ⟨S50000x32, .f32⟩) main_call1_v10) (TRef.of (T := ⟨S50000x32, .f32⟩) main_v33) subf ]

theorem ops_split : (ops : List (HloOp τ sig (Elt F))) = s1 ++ s2 ++ s3 ++ s4 ++ s5 := rfl

/-! Each stretch from arbitrary contents V: the buffers a later stretch reads, as the stage values of what V holds. -/

theorem s1_v9 (V : Valuation τ sig (Elt F)) :
    after (s1 (F := F)) V (Proc.devRef .tc main_v9) = val_main_v9 (F := F) (V (Proc.devRef .tc main_arg1)) := by
  after_results_simp
  rfl

theorem s1_arg0 (V : Valuation τ sig (Elt F)) :
    after (s1 (F := F)) V (Proc.devRef .tc main_arg0) = V (Proc.devRef .tc main_arg0) := by
  after_results_simp

theorem s2_v18 (V : Valuation τ sig (Elt F)) (x1 : (⟨S2x800000, .i32⟩ : BufTy).Contents (Elt F))
    (h9 : V (Proc.devRef .tc main_v9) = val_main_v9 (F := F) x1) (h3 : V (Proc.devRef .tc main_v3) = val_main_v3 (F := F) x1) :
    after (s2 (F := F)) V (Proc.devRef .tc main_v18)
      = val_main_v18 (F := F) (V (Proc.devRef .tc main_arg0)) x1 (V (Proc.devRef .tc main_arg2)) (V (Proc.devRef .tc main_arg3)) := by
  after_results_simp
  rw [h9, h3]
  rw [val_main_v18, val_main_v17, val_main_v14, val_main_v11, val_main_v10, val_main_v12, val_main_cst, val_main_v13,
    val_main_v16, val_main_v15, val_main_call0_v0, val_main_call0_cst]
  simp only [TRef.ofBuf, TRef.toBuf, cast_cast, cast_eq]

-- The same reading of main_v3 and main_v1 after the first stretch: evaluated, both sides agree.
theorem s1_v3 (V : Valuation τ sig (Elt F)) :
    after (s1 (F := F)) V (Proc.devRef .tc main_v3) = val_main_v3 (F := F) (V (Proc.devRef .tc main_arg1)) := by
  after_results_simp
  rfl
theorem s1_v1 (V : Valuation τ sig (Elt F)) :
    after (s1 (F := F)) V (Proc.devRef .tc main_v1) = val_main_v1 (F := F) (V (Proc.devRef .tc main_arg1)) := by
  after_results_simp
  rfl

-- The third stretch over main_v1 as read from x1: with the stages val_main_v24 … val_main_c_1 written out, the two sides agree term for term.
theorem s3_v24 (V : Valuation τ sig (Elt F)) (x1 : (⟨S2x800000, .i32⟩ : BufTy).Contents (Elt F))
    (h1 : V (Proc.devRef .tc main_v1) = val_main_v1 (F := F) x1) :
    after (s3 (F := F)) V (Proc.devRef .tc main_v24) = val_main_v24 (F := F) x1 := by
  after_results_simp
  rw [h1]
  rw [val_main_v24, val_main_v23, val_main_v20, val_main_v22, val_main_v19, val_main_v21, val_main_c_1, val_main_c_2]

-- The fourth stretch over main_v18, main_v24 and main_v3 as given: with the stages val_main_v32 … val_main_v25 written out, the two sides agree term for term.
theorem s4_v32 (V : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F))
    (h18 : V (Proc.devRef .tc main_v18) = val_main_v18 (F := F) x0 x1 x2 x3)
    (h24 : V (Proc.devRef .tc main_v24) = val_main_v24 (F := F) x1) (h3 : V (Proc.devRef .tc main_v3) = val_main_v3 (F := F) x1) :
    after (s4 (F := F)) V (Proc.devRef .tc main_v32)
      = val_main_v32 (F := F) x0 x1 x2 x3 (V (Proc.devRef .tc main_arg4)) (V (Proc.devRef .tc main_arg5)) := by
  after_results_simp
  rw [h18, h24, h3]
  rw [val_main_v32, val_main_v31, val_main_v30, val_main_v29, val_main_v28, val_main_v27, val_main_cst_3, val_main_v26,
    val_main_v25]

/-- Contents carried to a typed reference's buffer and read back from it are the contents: the two transports are
    along an equality of types and its inverse. -/
private theorem ofBuf_toBuf {Val : EltTy → Type} {T : BufTy} (x : TRef sig T) (v : T.Contents Val) :
    x.ofBuf (x.toBuf v) = v := by
  obtain ⟨r, h, h1, h2⟩ := x
  subst h
  rfl

-- The fifth stretch over main_v32 as given: the typed references' transports cancel, and with val_main_v33 and the val_main_call1_… stages written out the two sides agree term for term.
theorem s5_v33 (V : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h32 : V (Proc.devRef .tc main_v32) = val_main_v32 (F := F) x0 x1 x2 x3 x4 x5) :
    after (s5 (F := F)) V (Proc.devRef .tc main_v33) = val_main_v33 (F := F) x0 x1 x2 x3 x4 x5 := by
  -- the contents of main_v33, as the operations' functions composed over what V holds at main_v32
  after_results_simp
  rw [h32]
  -- every intermediate value is written through its typed reference and read back through the same one
  simp only [ofBuf_toBuf]
  -- the buffer read and the buffer written have the types their typed references carry, by computation
  have hx : ∀ v : (⟨S50000x32, .f32⟩ : BufTy).Contents (Elt F),
      (TRef.of (T := ⟨S50000x32, .f32⟩) main_v32).ofBuf v = v := fun v => rfl
  have hy : ∀ v : (⟨S50000x32, .f32⟩ : BufTy).Contents (Elt F),
      (TRef.of (T := ⟨S50000x32, .f32⟩) main_v33).toBuf v = v := fun v => rfl
  rw [hy, hx]
  -- the right side's stages written out: the two sides agree term for term
  rw [val_main_v33, val_main_call1_v10, val_main_call1_v9, val_main_call1_v8, val_main_call1_v7, val_main_call1_cst_1,
    val_main_call1_v6, val_main_call1_v5, val_main_call1_v4, val_main_call1_v3, val_main_call1_v2, val_main_call1_v1,
    val_main_call1_cst_0, val_main_call1_v0, val_main_call1_cst]

/-! ## What each stretch leaves alone -/

/-- The buffers the first stretch writes. -/
abbrev s1_W : List (Ref sig .tc) := [main_v0, main_v1, main_v2, main_v3, main_c, main_v4, main_v5, main_c_0, main_v6, main_v7, main_v8, main_v9]
/-- The buffers the second stretch writes. -/
abbrev s2_W : List (Ref sig .tc) := [main_v10, main_v11, main_cst, main_v12, main_v13, main_v14, main_v15, main_v16, main_v17, main_call0_cst, main_call0_v0, main_v18]
/-- The buffers the third stretch writes. -/
abbrev s3_W : List (Ref sig .tc) := [main_c_1, main_v19, main_v20, main_c_2, main_v21, main_v22, main_v23, main_v24]
/-- The buffers the fourth stretch writes. -/
abbrev s4_W : List (Ref sig .tc) := [main_v25, main_v26, main_cst_3, main_v27, main_v28, main_v29, main_v30, main_v31, main_v32]
/-- The buffers the fifth stretch writes. -/
abbrev s5_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v33]

/-- Every operation of stretch 1 writes only buffers of its written list. -/
private theorem s1_writes : (s1 : List (HloOp τ sig (Elt F))).Forall fun op => op.writes ⊆ (s1_W.map (Proc.devRef (τ := τ) .tc)).toFinset := by
  simp only [List.Forall]
  exact (by
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide))
theorem s1_keeps (V : Valuation τ sig (Elt F)) {r : Ref sig .tc} (h : r ∉ s1_W) :
    after (s1 (F := F)) V (Proc.devRef .tc r) = V (Proc.devRef .tc r) :=
  after_of_writes_sub s1 V s1_writes h
/-- Every operation of stretch 2 writes only buffers of its written list. -/
private theorem s2_writes : (s2 : List (HloOp τ sig (Elt F))).Forall fun op => op.writes ⊆ (s2_W.map (Proc.devRef (τ := τ) .tc)).toFinset := by
  simp only [List.Forall]
  exact (by
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide))
theorem s2_keeps (V : Valuation τ sig (Elt F)) {r : Ref sig .tc} (h : r ∉ s2_W) :
    after (s2 (F := F)) V (Proc.devRef .tc r) = V (Proc.devRef .tc r) :=
  after_of_writes_sub s2 V s2_writes h
/-- Every operation of stretch 3 writes only buffers of its written list. -/
private theorem s3_writes : (s3 : List (HloOp τ sig (Elt F))).Forall fun op => op.writes ⊆ (s3_W.map (Proc.devRef (τ := τ) .tc)).toFinset := by
  simp only [List.Forall]
  exact (by
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide))
theorem s3_keeps (V : Valuation τ sig (Elt F)) {r : Ref sig .tc} (h : r ∉ s3_W) :
    after (s3 (F := F)) V (Proc.devRef .tc r) = V (Proc.devRef .tc r) :=
  after_of_writes_sub s3 V s3_writes h
/-- Every operation of stretch 4 writes only buffers of its written list. -/
private theorem s4_writes : (s4 : List (HloOp τ sig (Elt F))).Forall fun op => op.writes ⊆ (s4_W.map (Proc.devRef (τ := τ) .tc)).toFinset := by
  simp only [List.Forall]
  exact (by
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide))
theorem s4_keeps (V : Valuation τ sig (Elt F)) {r : Ref sig .tc} (h : r ∉ s4_W) :
    after (s4 (F := F)) V (Proc.devRef .tc r) = V (Proc.devRef .tc r) :=
  after_of_writes_sub s4 V s4_writes h
/-- Every operation of stretch 5 writes only buffers of its written list. -/
private theorem s5_writes : (s5 : List (HloOp τ sig (Elt F))).Forall fun op => op.writes ⊆ (s5_W.map (Proc.devRef (τ := τ) .tc)).toFinset := by
  simp only [List.Forall]
  exact (by
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide))
theorem s5_keeps (V : Valuation τ sig (Elt F)) {r : Ref sig .tc} (h : r ∉ s5_W) :
    after (s5 (F := F)) V (Proc.devRef .tc r) = V (Proc.devRef .tc r) :=
  after_of_writes_sub s5 V s5_writes h

end Cert.ReferenceIdeal.Eval

end
-- ==== Proof.RefFinal.lean ====
/-
  The reference's run: its 56 host operations, taken as five stretches one after the other, leave in the result buffer
  the last stage's value of the six arguments, and leave the arguments as they were.
-/
import proofs.«402938_j41772851920952_2_alg».proof.Proof.RefEval
import Idealize.ShloMosaic.Lib.StableHlo.Run

set_option maxRecDepth 16384

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A buffer none of the first two stretches writes is, after them, as before. -/
private theorem keeps12 (V : Valuation τ sig (Elt F)) {r : Ref sig .tc} (h1 : r ∉ s1_W) (h2 : r ∉ s2_W) :
    after (s2 (F := F)) (after (s1 (F := F)) V) (Proc.devRef .tc r) = V (Proc.devRef .tc r) :=
  (s2_keeps _ h2).trans (s1_keeps V h1)

/-- A buffer none of the first three stretches writes is, after them, as before. -/
private theorem keeps123 (V : Valuation τ sig (Elt F)) {r : Ref sig .tc} (h1 : r ∉ s1_W) (h2 : r ∉ s2_W) (h3 : r ∉ s3_W) :
    after (s3 (F := F)) (after (s2 (F := F)) (after (s1 (F := F)) V)) (Proc.devRef .tc r) = V (Proc.devRef .tc r) :=
  (s3_keeps _ h3).trans (keeps12 V h1 h2)

/-- After the first two stretches the first layer's output is its stage value of the arguments. -/
private theorem s12_v18 (V : Valuation τ sig (Elt F)) :
    after (s2 (F := F)) (after (s1 (F := F)) V) (Proc.devRef .tc main_v18)
      = val_main_v18 (F := F) (V (Proc.devRef .tc main_arg0)) (V (Proc.devRef .tc main_arg1)) (V (Proc.devRef .tc main_arg2))
          (V (Proc.devRef .tc main_arg3)) := by
  have h := s2_v18 (after (s1 (F := F)) V) (V (Proc.devRef .tc main_arg1)) (s1_v9 V) (s1_v3 V)
  have a0 : after (s1 (F := F)) V (Proc.devRef .tc main_arg0) = V (Proc.devRef .tc main_arg0) := s1_keeps V (by decide)
  have a2 : after (s1 (F := F)) V (Proc.devRef .tc main_arg2) = V (Proc.devRef .tc main_arg2) := s1_keeps V (by decide)
  have a3 : after (s1 (F := F)) V (Proc.devRef .tc main_arg3) = V (Proc.devRef .tc main_arg3) := s1_keeps V (by decide)
  rw [a0, a2, a3] at h
  exact h

/-- After the first four stretches the second layer's biased sums are their stage value of the arguments. -/
private theorem s1234_v32 (V : Valuation τ sig (Elt F)) :
    after (s4 (F := F)) (after (s3 (F := F)) (after (s2 (F := F)) (after (s1 (F := F)) V))) (Proc.devRef .tc main_v32)
      = val_main_v32 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  have h18 : after (s3 (F := F)) (after (s2 (F := F)) (after (s1 (F := F)) V)) (Proc.devRef .tc main_v18)
      = val_main_v18 (F := F) (V (Proc.devRef .tc main_arg0)) (V (Proc.devRef .tc main_arg1)) (V (Proc.devRef .tc main_arg2))
          (V (Proc.devRef .tc main_arg3)) :=
    (s3_keeps _ (by decide)).trans (s12_v18 V)
  have h1 : after (s2 (F := F)) (after (s1 (F := F)) V) (Proc.devRef .tc main_v1)
      = val_main_v1 (F := F) (V (Proc.devRef .tc main_arg1)) :=
    (s2_keeps _ (by decide)).trans (s1_v1 V)
  have h24 : after (s3 (F := F)) (after (s2 (F := F)) (after (s1 (F := F)) V)) (Proc.devRef .tc main_v24)
      = val_main_v24 (F := F) (V (Proc.devRef .tc main_arg1)) :=
    s3_v24 _ _ h1
  have h3 : after (s3 (F := F)) (after (s2 (F := F)) (after (s1 (F := F)) V)) (Proc.devRef .tc main_v3)
      = val_main_v3 (F := F) (V (Proc.devRef .tc main_arg1)) :=
    (s3_keeps _ (by decide)).trans ((s2_keeps _ (by decide)).trans (s1_v3 V))
  have h := s4_v32 (after (s3 (F := F)) (after (s2 (F := F)) (after (s1 (F := F)) V))) _ _ _ _ h18 h24 h3
  have a4 : after (s3 (F := F)) (after (s2 (F := F)) (after (s1 (F := F)) V)) (Proc.devRef .tc main_arg4)
      = V (Proc.devRef .tc main_arg4) := keeps123 V (by decide) (by decide) (by decide)
  have a5 : after (s3 (F := F)) (after (s2 (F := F)) (after (s1 (F := F)) V)) (Proc.devRef .tc main_arg5)
      = V (Proc.devRef .tc main_arg5) := keeps123 V (by decide) (by decide) (by decide)
  rw [a4, a5] at h
  exact h

/-- After all 56 operations, from any contents `V`, the result buffer holds the last stage's value of what `V` holds at the
    six arguments. -/
theorem after_ops_v33 (V : Valuation τ sig (Elt F)) :
    after (ops (F := F)) V (Proc.devRef .tc main_v33)
      = val_main_v33 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_app, after_app, after_app, after_app]
  exact s5_v33 _ _ _ _ _ _ _ (s1234_v32 V)

/-- No operation writes a buffer that none of the five stretches writes. -/
theorem after_ops_keeps (V : Valuation τ sig (Elt F)) {r : Ref sig .tc}
    (h1 : r ∉ s1_W) (h2 : r ∉ s2_W) (h3 : r ∉ s3_W) (h4 : r ∉ s4_W) (h5 : r ∉ s5_W) :
    after (ops (F := F)) V (Proc.devRef .tc r) = V (Proc.devRef .tc r) := by
  rw [ops_split, after_app, after_app, after_app, after_app]
  exact (s5_keeps _ h5).trans ((s4_keeps _ h4).trans (keeps123 V h1 h2 h3))

/-- Every weakly fair execution of the reference's @main terminates with its result buffer at the last stage's value of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hrun := run_seq scopedRefs_eq scopedSems_eq defs (main (F := F)) (fun _ => ops) main_eq (fun _ => ops_sub) m ρ
  refine (θ_run defs _ _).mono (fun r h c => ?_) hrun
  have e33 := (h c main_v33).trans (after_ops_v33 (launchContents m c))
  have e0 := (h c main_arg0).trans (after_ops_keeps (launchContents m c) (by decide) (by decide) (by decide) (by decide) (by decide))
  have e1 := (h c main_arg1).trans (after_ops_keeps (launchContents m c) (by decide) (by decide) (by decide) (by decide) (by decide))
  have e2 := (h c main_arg2).trans (after_ops_keeps (launchContents m c) (by decide) (by decide) (by decide) (by decide) (by decide))
  have e3 := (h c main_arg3).trans (after_ops_keeps (launchContents m c) (by decide) (by decide) (by decide) (by decide) (by decide))
  have e4 := (h c main_arg4).trans (after_ops_keeps (launchContents m c) (by decide) (by decide) (by decide) (by decide) (by decide))
  have e5 := (h c main_arg5).trans (after_ops_keeps (launchContents m c) (by decide) (by decide) (by decide) (by decide) (by decide))
  exact ⟨e33, e0, e1, e2, e3, e4, e5⟩

end Cert.ReferenceIdeal.Eval

end
-- ==== Proof.RefStages.lean ====
import proofs.«402938_j41772851920952_2_alg».proof.Proof.RefRead
import proofs.«402938_j41772851920952_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.ReadP Cert.Gcn
open Idealize.ShloMosaic Idealize.ShloMosaic.TcCoe Idealize.ShloMosaic.ValueIdx Idealize.SL.Sem Idealize.ShloMosaic.StableHlo

variable (x0 : (⟨S50000x96, .f32⟩ : BufTy).Contents (Elt Ideal)) (x1 : (⟨S2x800000, .i32⟩ : BufTy).Contents (Elt Ideal)) (x2 : (⟨S96x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal))

/-- The reference's first `dot_general` is each gathered row times the first weight matrix. -/
theorem product1 : val_main_v11 (F := Ideal) x0 x1 x2 = rowsTimes (n := 800000) (k := 96) (m := 64) (val_main_v10 (F := Ideal) x0 x1) x2 := by
  funext i
  obtain ⟨e, j, rfl⟩ : ∃ (e : Fin 800000) (j : Fin 64), i = ix2 e j := ⟨i 0, i 1, eq_ix2 i⟩
  rw [val_main_v11_apply, rowsTimes_apply]
  refine Finset.sum_congr rfl fun k _ => ?_
  have el : lidx_main_v11 (ix2 e j) k = ix2 e k :=
    funext fun a => Fin.ext (by match a with | ⟨0, _⟩ => rfl | ⟨1, _⟩ => rfl)
  have er : ridx_main_v11 (ix2 e j) k = ix2 k j :=
    funext fun a => Fin.ext (by match a with | ⟨0, _⟩ => rfl | ⟨1, _⟩ => rfl)
  rw [el, er]

/-- The reference's first layer after the sum over edges: bias, then relu. -/
theorem relu : val_main_v18 (F := Ideal) x0 x1 x2 x3
    = biasRelu (n := 50000) (m := 64) (val_main_v14 (F := Ideal) x0 x1 x2) (fun q : Fin 64 => x3 (ix1 q)) := by
  funext i
  obtain ⟨v, j, rfl⟩ : ∃ (v : Fin 50000) (j : Fin 64), i = ix2 v j := ⟨i 0, i 1, eq_ix2 i⟩
  have eb : idx_main_v15 (idx_main_v16 (ix2 v j)) = ix1 j :=
    funext fun a => Fin.ext (by match a with | ⟨0, _⟩ => rfl)
  rw [val_main_v18_apply, val_main_v17_apply, val_main_v16_apply, val_main_v15_apply, val_main_call0_v0_apply,
    val_main_call0_cst_apply, eb, biasRelu_apply, Ideal.maximumf_def, Ideal.addf_def, Ideal.ofBits_def]

/-- The reference's second `dot_general` is each gathered row times the second weight matrix. -/
theorem product2 : val_main_v26 (F := Ideal) x0 x1 x2 x3 x4
    = rowsTimes (n := 800000) (k := 64) (m := 32) (val_main_v25 (F := Ideal) x0 x1 x2 x3) x4 := by
  funext i
  obtain ⟨e, j, rfl⟩ : ∃ (e : Fin 800000) (j : Fin 32), i = ix2 e j := ⟨i 0, i 1, eq_ix2 i⟩
  rw [val_main_v26_apply, rowsTimes_apply]
  refine Finset.sum_congr rfl fun k _ => ?_
  have el : lidx_main_v26 (ix2 e j) k = ix2 e k :=
    funext fun a => Fin.ext (by match a with | ⟨0, _⟩ => rfl | ⟨1, _⟩ => rfl)
  have er : ridx_main_v26 (ix2 e j) k = ix2 k j :=
    funext fun a => Fin.ext (by match a with | ⟨0, _⟩ => rfl | ⟨1, _⟩ => rfl)
  rw [el, er]

/-- The f32 word the row maximum starts from reads as minus infinity, the bottom element. -/
theorem negInf_eq_bot : Ideal.ofBits .f32 0xFF800000#32 = (⊥ : EReal) := by
  simp [Ideal.ofBits, Ideal.ieee]

/-- The second layer's sum over edges with the bias added, at node `v` and column `q`: the row's logit. -/
theorem logit_apply (v : Fin 50000) (q : Fin 32) :
    val_main_v32 (F := Ideal) x0 x1 x2 x3 x4 x5 (ix2 v q) = logits (n := 50000) (m := 32) (val_main_v29 (F := Ideal) x0 x1 x2 x3 x4) (fun q : Fin 32 => x5 (ix1 q)) v q := by
  have eb : idx_main_v30 (idx_main_v31 (ix2 v q)) = ix1 q :=
    funext fun a => Fin.ext (by match a with | ⟨0, _⟩ => rfl)
  rw [val_main_v32_apply, val_main_v31_apply, val_main_v30_apply, eb, Ideal.addf_def]
  rfl

/-- Two folds of one operation over `Fin n` and `Fin m` with `n = m` agree when the folded functions agree along the cast. -/
private theorem fold_fin_cast {α : Type} (op : α → α → α) [Std.Commutative op] [Std.Associative op] (init : α)
    {n m : Nat} (h : n = m) (f : Fin n → α) (g : Fin m → α) (hfg : ∀ k : Fin n, f k = g (k.cast h)) :
    (Finset.univ : Finset (Fin n)).fold op init f = (Finset.univ : Finset (Fin m)).fold op init g := by
  subst h
  exact congrArg (fun z => Finset.fold op init z Finset.univ) (funext hfg)

/-- The reduction by maximum along a row is the fold of `max` over the row's logits. -/
theorem rowMax_apply (v : Fin 50000) :
    val_main_call1_v0 (F := Ideal) x0 x1 x2 x3 x4 x5 (ix1 v) = rowMax (logits (n := 50000) (m := 32) (val_main_v29 (F := Ideal) x0 x1 x2 x3 x4) (fun q : Fin 32 => x5 (ix1 q)) v) := by
  have hrow : ∀ q : Fin 32, val_main_v32 (F := Ideal) x0 x1 x2 x3 x4 x5 (ix2 v q) = logits (n := 50000) (m := 32) (val_main_v29 (F := Ideal) x0 x1 x2 x3 x4) (fun q : Fin 32 => x5 (ix1 q)) v q :=
    fun q => logit_apply x0 x1 x2 x3 x4 x5 v q
  unfold val_main_call1_v0
  generalize val_main_v32 (F := Ideal) x0 x1 x2 x3 x4 x5 = y at hrow ⊢
  have hred : S50000x32.Reduces [1] S50000 := by decide
  have hfold := Host.reduce_eq_fold_single (α := Ideal .f32) (s := S50000x32) (t := S50000) (a := 1) (u := S_)
    (FloatOps.maximumf (F := Ideal) (φ := .f32)) y (val_main_call1_cst (F := Ideal))
    reducesTo_S50000x32_S50000_d1 hred h_S_ (ix1 v)
  rw [hfold, val_main_call1_cst_apply, Ideal.ofBits_def]
  unfold rowMax
  have hsz : S50000x32.size 1 = 32 := rfl
  refine fold_fin_cast _ _ hsz _ _ fun k => ?_
  have e : hred.lift (ix1 v) k = ix2 v (k.cast hsz) :=
    funext fun c => Fin.ext (by
      rw [Shape.Reduces.lift_val]
      unfold Shape.Reduces.liftVal
      match c with
      | ⟨0, _⟩ => rfl
      | ⟨1, _⟩ => rfl)
  show y (hred.lift (ix1 v) k) = _
  rw [e, hrow]

/-- The maximum of minus infinity and the row's reduction is the row maximum. -/
theorem shift_apply (v : Fin 50000) :
    val_main_call1_v2 (F := Ideal) x0 x1 x2 x3 x4 x5 (ix1 v) = rowMax (logits (n := 50000) (m := 32) (val_main_v29 (F := Ideal) x0 x1 x2 x3 x4) (fun q : Fin 32 => x5 (ix1 q)) v) := by
  rw [val_main_call1_v2_apply, val_main_call1_v1_apply, val_main_call1_cst_0_apply, rowMax_apply,
    Ideal.maximumf_def, Ideal.ofBits_def, negInf_eq_bot]
  exact max_bot_left _

/-- A logit minus its row's maximum. -/
theorem centered_apply (v : Fin 50000) (q : Fin 32) :
    val_main_call1_v5 (F := Ideal) x0 x1 x2 x3 x4 x5 (ix2 v q) = logits (n := 50000) (m := 32) (val_main_v29 (F := Ideal) x0 x1 x2 x3 x4) (fun q : Fin 32 => x5 (ix1 q)) v q - rowMax (logits (n := 50000) (m := 32) (val_main_v29 (F := Ideal) x0 x1 x2 x3 x4) (fun q : Fin 32 => x5 (ix1 q)) v) := by
  have e : idx_main_call1_v3 (idx_main_call1_v4 (ix2 v q)) = ix1 v :=
    funext fun a => Fin.ext (by match a with | ⟨0, _⟩ => rfl)
  rw [val_main_call1_v5_apply, val_main_call1_v4_apply, val_main_call1_v3_apply, e, shift_apply, logit_apply,
    Ideal.subf_def]

/-- The row's sum of exponentials of the centered logits; the initial value of the sum is the zero word. -/
theorem sumExp_apply (v : Fin 50000) :
    val_main_call1_v7 (F := Ideal) x0 x1 x2 x3 x4 x5 (ix1 v)
      = ∑ q : Fin 32, Ideal.exp (logits (n := 50000) (m := 32) (val_main_v29 (F := Ideal) x0 x1 x2 x3 x4) (fun q : Fin 32 => x5 (ix1 q)) v q - rowMax (logits (n := 50000) (m := 32) (val_main_v29 (F := Ideal) x0 x1 x2 x3 x4) (fun q : Fin 32 => x5 (ix1 q)) v)) := by
  rw [val_main_call1_v7_apply, val_main_call1_cst_1_apply, Ideal.ofBits_def, Ideal.ofBits_zero_f32, zero_add]
  refine Finset.sum_congr rfl fun k _ => ?_
  have e : idx_main_call1_v7 (ix1 v) k = ix2 v k :=
    funext fun a => Fin.ext (by match a with | ⟨0, _⟩ => rfl | ⟨1, _⟩ => rfl)
  rw [e, val_main_call1_v6_apply, centered_apply, Ideal.hostUnary_exp_def]

/-- The reference's second layer after the sum over edges: bias, then the row-wise log-softmax. -/
theorem logSoftmax : val_main_v33 (F := Ideal) x0 x1 x2 x3 x4 x5
    = biasLogSoftmax (n := 50000) (m := 32) (val_main_v29 (F := Ideal) x0 x1 x2 x3 x4) (fun q : Fin 32 => x5 (ix1 q)) := by
  funext i
  obtain ⟨v, j, rfl⟩ : ∃ (v : Fin 50000) (j : Fin 32), i = ix2 v j := ⟨i 0, i 1, eq_ix2 i⟩
  have e : idx_main_call1_v8 (idx_main_call1_v10 (ix2 v j)) = ix1 v :=
    funext fun a => Fin.ext (by match a with | ⟨0, _⟩ => rfl)
  rw [val_main_v33_apply, val_main_call1_v10_apply, val_main_call1_v9_apply, val_main_call1_v8_apply, e,
    sumExp_apply, centered_apply, biasLogSoftmax_apply, Ideal.subf_def, Ideal.hostUnary_log_def]

end Cert.ReferenceIdeal.Stages

end
-- ==== Proof.Bridge.lean ====
/-
  The two programs compute one function.

  At the exact interpretation the kernel's closed form `Stages.output` and the reference's last stage agree whenever
  every source index is a node: the kernel's fill never applies, narrowing to the matmul's input format changes nothing,
  both programs gather with the same start indices and sum into the same targets, and each of the reference's product,
  bias-relu and bias-log-softmax stages is the function the kernel's regions compute.
-/
import proofs.«402938_j41772851920952_2_alg».proof.Proof.KStages
import proofs.«402938_j41772851920952_2_alg».proof.Proof.RefStages
import Idealize.ShloMosaic.Lib.ValueIdx
import Idealize.ShloMosaic.Lib.Pipeline.Value
import Idealize.ShloMosaic.Lib.ValueLayout

set_option maxRecDepth 16384

noncomputable section

namespace Cert.Bridge

open Cert.Gcn
open Idealize.ShloMosaic Idealize.ShloMosaic.TcCoe Idealize.ShloMosaic.ValueIdx Idealize.SL.Sem

/-- The two programs gather the first layer's rows with one record. -/
private theorem gather96_eq :
    Cert.KernelIdeal.gather_S50000x96_S800000x1_S800000x96_1_0_n_n_0_1_196
      = Cert.ReferenceIdeal.gather_S50000x96_S800000x1_S800000x96_1_0_n_n_0_1_196 := rfl

/-- And the second layer's. -/
private theorem gather64_eq :
    Cert.KernelIdeal.gather_S50000x64_S800000x1_S800000x64_1_0_n_n_0_1_164
      = Cert.ReferenceIdeal.gather_S50000x64_S800000x1_S800000x64_1_0_n_n_0_1_164 := rfl

/-- The two programs sum the first layer's rows into their targets with one record. -/
private theorem scatter64_eq :
    Cert.KernelIdeal.scatter_S50000x64_S800000x1_S800000x64_1_0_0_1
      = Cert.ReferenceIdeal.scatter_S50000x64_S800000x1_S800000x64_1_0_0_1 := rfl

/-- And the second layer's. -/
private theorem scatter32_eq :
    Cert.KernelIdeal.scatter_S50000x32_S800000x1_S800000x32_1_0_0_1
      = Cert.ReferenceIdeal.scatter_S50000x32_S800000x1_S800000x32_1_0_0_1 := rfl

/-- The reference's target row is the kernel's. -/
private theorem dst_eq (a1 : IVec Cert.KernelIdeal.S2x800000 32) :
    Cert.ReferenceIdeal.ReadP.val_main_v3 (F := Ideal) a1 = Cert.KernelIdeal.Stages.dstRow a1 := rfl

/-- The reference's first start indices are the kernel's. -/
private theorem start9_eq (a1 : IVec Cert.KernelIdeal.S2x800000 32) :
    Cert.ReferenceIdeal.ReadP.val_main_v9 (F := Ideal) a1
      = Cert.KernelIdeal.TakeMask.startIdx (Cert.KernelIdeal.TakeMask.srcRow a1) := rfl

/-- And so are its second. -/
private theorem start24_eq (a1 : IVec Cert.KernelIdeal.S2x800000 32) :
    Cert.ReferenceIdeal.ReadP.val_main_v24 (F := Ideal) a1
      = Cert.KernelIdeal.TakeMask.startIdx (Cert.KernelIdeal.TakeMask.srcRow a1) := rfl

/-- Narrowing to the matmul's input format changes nothing at the exact interpretation. -/
private theorem truncf_id {s : Shape} (x : FVec Ideal s .f32) (h : FTy.bits .bf16 < FTy.bits .f32) :
    truncf .bf16 x h = x := rfl

/-- The reference's first gather is the kernel's gather at the kernel's start indices. -/
private theorem gather96_ref (a0 : FVec Ideal Cert.KernelIdeal.S50000x96 .f32) (a1 : IVec Cert.KernelIdeal.S2x800000 32) :
    Cert.ReferenceIdeal.ReadP.val_main_v10 (F := Ideal) a0 a1
      = Host.gather Cert.KernelIdeal.gather_S50000x96_S800000x1_S800000x96_1_0_n_n_0_1_196 a0
          (Cert.KernelIdeal.TakeMask.startIdx (Cert.KernelIdeal.TakeMask.srcRow a1)) := rfl

/-- The kernel's first sum over edges is the reference's scatter-add of the same rows. -/
private theorem edgeSum64_ref (a1 : IVec Cert.KernelIdeal.S2x800000 32) (u : FVec Ideal Cert.KernelIdeal.S800000x64 .f32) :
    Cert.KernelIdeal.Stages.edgeSum64 (F := Ideal) (Cert.KernelIdeal.Stages.dstRow a1) u
      = Host.scatterAdd Cert.ReferenceIdeal.scatter_S50000x64_S800000x1_S800000x64_1_0_0_1
          (Cert.ReferenceIdeal.ReadP.val_main_v12 (F := Ideal)) (Cert.ReferenceIdeal.ReadP.val_main_v13 (F := Ideal) a1) u := rfl

/-- And the second. -/
private theorem edgeSum32_ref (a1 : IVec Cert.KernelIdeal.S2x800000 32) (u : FVec Ideal Cert.KernelIdeal.S800000x32 .f32) :
    Cert.KernelIdeal.Stages.edgeSum32 (F := Ideal) (Cert.KernelIdeal.Stages.dstRow a1) u
      = Host.scatterAdd Cert.ReferenceIdeal.scatter_S50000x32_S800000x1_S800000x32_1_0_0_1
          (Cert.ReferenceIdeal.ReadP.val_main_v27 (F := Ideal)) (Cert.ReferenceIdeal.ReadP.val_main_v28 (F := Ideal) a1) u := rfl

/-- When every source index is a node, the kernel's hidden layer is the reference's. -/
private theorem hidden_eq
    (a0 : FVec Ideal Cert.KernelIdeal.S50000x96 .f32) (a1 : IVec Cert.KernelIdeal.S2x800000 32)
    (a2 : FVec Ideal Cert.KernelIdeal.S96x64 .f32) (a3 : FVec Ideal Cert.KernelIdeal.S64 .f32)
    (hs : ∀ e : Cert.KernelIdeal.S800000.Idx,
      0 ≤ (Cert.KernelIdeal.TakeMask.srcRow a1 e).toInt ∧ (Cert.KernelIdeal.TakeMask.srcRow a1 e).toInt < 50000) :
    Cert.KernelIdeal.Stages.hidden a0 a1 a2 a3
      = Cert.ReferenceIdeal.ReadP.val_main_v18 (F := Ideal) a0 a1 a2 a3 := by
  -- the fill never applies, so the masked gather is the reference's gather
  have hG : Cert.KernelIdeal.Stages.maskedGather96 (F := Ideal) a0 (Cert.KernelIdeal.TakeMask.srcRow a1)
      = Cert.ReferenceIdeal.ReadP.val_main_v10 (F := Ideal) a0 a1 := by
    unfold Cert.KernelIdeal.Stages.maskedGather96
    rw [Cert.KernelIdeal.TakeMask.select_inRange96 (Cert.KernelIdeal.TakeMask.srcRow a1) hs]
    exact (gather96_ref a0 a1).symm
  -- the sum over edges of the per-edge products
  have hA : Cert.KernelIdeal.Stages.edgeSum64 (F := Ideal) (Cert.KernelIdeal.Stages.dstRow a1)
      (rowsTimes (n := 800000) (k := 96) (m := 64)
        (truncf .bf16 (Cert.KernelIdeal.Stages.maskedGather96 (F := Ideal) a0 (Cert.KernelIdeal.TakeMask.srcRow a1)) Cert.KernelIdeal.Gen.bitsLt_bf16_f32)
        (truncf .bf16 a2 Cert.KernelIdeal.Gen.bitsLt_bf16_f32))
      = Cert.ReferenceIdeal.ReadP.val_main_v14 (F := Ideal) a0 a1 a2 := by
    rw [truncf_id, truncf_id, hG, edgeSum64_ref]
    unfold Cert.ReferenceIdeal.ReadP.val_main_v14
    rw [Cert.ReferenceIdeal.Stages.product1]
  -- the bias as a one-row matrix read at its column
  have hb : (fun q : Fin 64 => Cert.KernelIdeal.Stages.biasRow64 (F := Ideal) a3 (ix2 (0 : Fin 1) q))
      = fun q : Fin 64 => a3 (ix1 q) := by
    funext q
    unfold Cert.KernelIdeal.Stages.biasRow64
    exact shapeCast_a_1a_apply a3 _ 0 q
  rw [Cert.ReferenceIdeal.Stages.relu]
  unfold Cert.KernelIdeal.Stages.hidden
  rw [hA, hb]

/-- When every source index is a node, the kernel's closed form is the reference's last stage. -/
theorem output_eq_reference
    (a0 : FVec Ideal Cert.KernelIdeal.S50000x96 .f32) (a1 : IVec Cert.KernelIdeal.S2x800000 32)
    (a2 : FVec Ideal Cert.KernelIdeal.S96x64 .f32) (a3 : FVec Ideal Cert.KernelIdeal.S64 .f32)
    (a4 : FVec Ideal Cert.KernelIdeal.S64x32 .f32) (a5 : FVec Ideal Cert.KernelIdeal.S32 .f32)
    (hs : ∀ e : Cert.KernelIdeal.S800000.Idx,
      0 ≤ (Cert.KernelIdeal.TakeMask.srcRow a1 e).toInt ∧ (Cert.KernelIdeal.TakeMask.srcRow a1 e).toInt < 50000) :
    Cert.KernelIdeal.Stages.output a0 a1 a2 a3 a4 a5
      = Cert.ReferenceIdeal.ReadP.val_main_v33 (F := Ideal) a0 a1 a2 a3 a4 a5 := by
  -- the fill never applies, so the masked gather is the reference's gather of the same hidden layer
  have hG : Cert.KernelIdeal.Stages.maskedGather64 (F := Ideal) (Cert.KernelIdeal.Stages.hidden a0 a1 a2 a3) (Cert.KernelIdeal.TakeMask.srcRow a1)
      = Cert.ReferenceIdeal.ReadP.val_main_v25 (F := Ideal) a0 a1 a2 a3 := by
    unfold Cert.KernelIdeal.Stages.maskedGather64
    rw [Cert.KernelIdeal.TakeMask.select_inRange64 (Cert.KernelIdeal.TakeMask.srcRow a1) hs, hidden_eq a0 a1 a2 a3 hs]
    rfl
  -- the sum over edges of the per-edge products
  have hA : Cert.KernelIdeal.Stages.edgeSum32 (F := Ideal) (Cert.KernelIdeal.Stages.dstRow a1)
      (rowsTimes (n := 800000) (k := 64) (m := 32)
        (truncf .bf16 (Cert.KernelIdeal.Stages.maskedGather64 (F := Ideal) (Cert.KernelIdeal.Stages.hidden a0 a1 a2 a3) (Cert.KernelIdeal.TakeMask.srcRow a1)) Cert.KernelIdeal.Gen.bitsLt_bf16_f32)
        (truncf .bf16 a4 Cert.KernelIdeal.Gen.bitsLt_bf16_f32))
      = Cert.ReferenceIdeal.ReadP.val_main_v29 (F := Ideal) a0 a1 a2 a3 a4 := by
    rw [truncf_id, truncf_id, hG, edgeSum32_ref]
    unfold Cert.ReferenceIdeal.ReadP.val_main_v29
    rw [Cert.ReferenceIdeal.Stages.product2]
  -- the bias as a one-row matrix read at its column
  have hb : (fun q : Fin 32 => Cert.KernelIdeal.Stages.biasRow32 (F := Ideal) a5 (ix2 (0 : Fin 1) q))
      = fun q : Fin 32 => a5 (ix1 q) := by
    funext q
    unfold Cert.KernelIdeal.Stages.biasRow32
    exact shapeCast_a_1a_apply a5 _ 0 q
  rw [Cert.ReferenceIdeal.Stages.logSoftmax]
  unfold Cert.KernelIdeal.Stages.output
  rw [hA, hb]

end Cert.Bridge

end
-- ==== Proof.lean ====
/-
  The certificate of a two-layer graph convolution: a kernel of four pipelined regions around gathers and sums on the
  host, against its array reference.

  Both programs gather node rows at each edge's source, multiply by a weight matrix, sum the products into each edge's
  target node and add a bias, twice, with a relu between the layers and a row-wise log-softmax at the end. The three
  frames: the two kernel programs by their generated frames, the reference by its run with the result dropped. The
  idealization rewrote nothing, so it is preserved trivially. For the value claim the kernel's run leaves in its result
  buffer a closed form of the six inputs (the program followed boundary by boundary), the reference's run leaves its last
  stage's value, and the two agree at the exact interpretation whenever every source index is a node, which the
  precondition says: then the kernel's out-of-range fill never applies, narrowing to the matmul's input format is the
  identity, and the remaining operations are the same on both sides.
-/
import proofs.«402938_j41772851920952_2_alg».proof.Defs
import proofs.«402938_j41772851920952_2_alg».proof.Proof.Gen.Kernel
import proofs.«402938_j41772851920952_2_alg».proof.Proof.Gen.Kernel.Skeleton
import proofs.«402938_j41772851920952_2_alg».proof.Proof.Gen.Kernel.Launch
import proofs.«402938_j41772851920952_2_alg».proof.Proof.Gen.Kernel.Points
import proofs.«402938_j41772851920952_2_alg».proof.Proof.Gen.Kernel.Frame
import proofs.«402938_j41772851920952_2_alg».proof.Proof.Gen.KernelIdeal
import proofs.«402938_j41772851920952_2_alg».proof.Proof.Gen.KernelIdeal.Skeleton
import proofs.«402938_j41772851920952_2_alg».proof.Proof.Gen.KernelIdeal.Launch
import proofs.«402938_j41772851920952_2_alg».proof.Proof.Gen.KernelIdeal.Points
import proofs.«402938_j41772851920952_2_alg».proof.Proof.Gen.KernelIdeal.Frame
import proofs.«402938_j41772851920952_2_alg».proof.Proof.Gen.ReferenceIdeal
import proofs.«402938_j41772851920952_2_alg».proof.Proof.Gen.Pre_finite_inputs
import proofs.«402938_j41772851920952_2_alg».proof.Proof.KRun
import proofs.«402938_j41772851920952_2_alg».proof.Proof.KChain
import proofs.«402938_j41772851920952_2_alg».proof.Proof.RefFinal
import proofs.«402938_j41772851920952_2_alg».proof.Proof.Bridge
import Idealize.ShloMosaic.Adequacy
import Idealize.ShloMosaic.Init

set_option maxRecDepth 16384

noncomputable section

namespace Cert.Proof

open Idealize.ShloMosaic Idealize.SL.Sem Cert.Kernel

/-- The reference runs and leaves its arguments alone: its run with the result's conjunct dropped. -/
theorem frameReference : Cert.frame_ReferenceIdeal := fun m ρ _ =>
  (θ_run Cert.ReferenceIdeal.defs _ _).mono (fun _ h c => (h c).2) (Cert.ReferenceIdeal.Eval.run (F := Ideal) m ρ)

/-- Both idealized programs run, leave their arguments alone, and end with the same result: the kernel's closed form of
    the launch contents. -/
theorem sameResult : Cert.algebraic_KernelIdeal_ReferenceIdeal := fun m ρ m' ρ' hpre hagree =>
  ⟨fun c => Cert.KernelIdeal.Stages.output (Cert.KernelIdeal.Chain.A0 m c) (Cert.KernelIdeal.Chain.A1 m c)
      (Cert.KernelIdeal.Chain.A2 m c) (Cert.KernelIdeal.Chain.A3 m c) (Cert.KernelIdeal.Chain.A4 m c) (Cert.KernelIdeal.Chain.A5 m c),
    (θ_run Cert.KernelIdeal.defs _ _).mono
      (fun _ h c => ⟨(h c).1.trans (Cert.KernelIdeal.Chain.result_at11 m ρ c), (h c).2⟩)
      (Cert.KernelIdeal.GenP.valueRun (F := Ideal) m ρ),
    (θ_run Cert.ReferenceIdeal.defs _ _).mono
      (fun _ h c => ⟨(h c).1.trans (by
          rw [(hagree c).1, (hagree c).2.1, (hagree c).2.2.1, (hagree c).2.2.2.1, (hagree c).2.2.2.2.1, (hagree c).2.2.2.2.2]
          exact (Cert.Bridge.output_eq_reference _ _ _ _ _ _
            (fun e => Cert.KernelIdeal.TakeMask.src_in_range m hpre c e)).symm), (h c).2⟩)
      (Cert.ReferenceIdeal.Eval.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frameReference,
  trivial,
  sameResult⟩

end Cert.Proof

end
